-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000 : Shape := ⟨1, ![100000]⟩
abbrev S16384 : Shape := ⟨1, ![16384]⟩
abbrev S16384x1 : Shape := ⟨2, ![16384, 1]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000 : S_.BroadcastsInDim S100000 (![] : Fin 0 → Fin S100000.rank)
  reducesTo_S100000_S_d0 : S100000.ReducesTo [0] S_
  bcast_S_S16384 : S_.BroadcastsInDim S16384 (![] : Fin 0 → Fin S16384.rank)
  reducesTo_S16384_S_d0 : S16384.ReducesTo [0] S_
  bcast_S_S16384x1 : S_.BroadcastsInDim S16384x1 (![] : Fin 0 → Fin S16384x1.rank)
  reducesTo_S16384x1_S_d0_1 : S16384x1.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_v27 : IVec S_ 1) (main_v32 : IVec S256 1) (main_c_12 : IVec S_ 1) : IVec S_ 1 :=
  let main_v33 : IVec S_ 1 := (fun x v => Host.reduce IntOp.andi x v reducesTo_S256_S_d0 h_S_) main_v32 main_c_12
  let main_v34 : IVec S_ 1 := andi main_v27 main_v33
  main_v34

def fn_part1 {F : FTy → Type} [FloatOps F] (main_arg3 : IVec S16384 32) (main_arg4 : IVec S16384x1 32) (main_arg5 : IVec S256 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .slt main_arg3 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  let main_c_7 : IVec S_ 32 := constantI S_ 32 0#32
  let main_v21 : IVec S16384x1 32 := broadcastInDim S16384x1 ![] bcast_S_S16384x1 main_c_7
  let main_v22 : IVec S16384x1 1 := cmpi .sge main_arg4 main_v21
  let main_c_8 : IVec S_ 32 := constantI S_ 32 100000#32
  let main_v23 : IVec S16384x1 32 := broadcastInDim S16384x1 ![] bcast_S_S16384x1 main_c_8
  let main_v24 : IVec S16384x1 1 := cmpi .slt main_arg4 main_v23
  let main_v25 : IVec S16384x1 1 := andi main_v22 main_v24
  let main_c_9 : IVec S_ 1 := constantI S_ 1 1#1
  let main_v26 : IVec S_ 1 := (fun x v => Host.reduce IntOp.andi x v reducesTo_S16384x1_S_d0_1 h_S_) main_v25 main_c_9
  let main_v27 : IVec S_ 1 := andi main_v20 main_v26
  let main_c_10 : IVec S_ 32 := constantI S_ 32 0#32
  let main_v28 : IVec S256 32 := broadcastInDim S256 ![] bcast_S_S256 main_c_10
  let main_v29 : IVec S256 1 := cmpi .sge main_arg5 main_v28
  let main_c_11 : IVec S_ 32 := constantI S_ 32 100000#32
  let main_v30 : IVec S256 32 := broadcastInDim S256 ![] bcast_S_S256 main_c_11
  let main_v31 : IVec S256 1 := cmpi .slt main_arg5 main_v30
  let main_v32 : IVec S256 1 := andi main_v29 main_v31
  let main_c_12 : IVec S_ 1 := constantI S_ 1 1#1
  fn_part2 (F := F) main_v27 main_v32 main_c_12

def fn {F : FTy → Type} [FloatOps F] (main_arg0 : FVec F S100000x256 .f32) (main_arg1 : FVec F S100000x256 .f32) (main_arg2 : FVec F S100000 .f32) (main_arg3 : IVec S16384 32) (main_arg4 : IVec S16384x1 32) (main_arg5 : IVec S256 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg3 main_v14
  let main_c_5 : IVec S_ 32 := constantI S_ 32 100000#32
  fn_part1 (F := F) main_arg3 main_arg4 main_arg5 main_v13 main_v15 main_c_5
-- ==== Kernel.lean ====
abbrev S100000x256 : Shape := ⟨2, ![100000, 256]⟩
abbrev S100000 : Shape := ⟨1, ![100000]⟩
abbrev S16384 : Shape := ⟨1, ![16384]⟩
abbrev S16384x1 : Shape := ⟨2, ![16384, 1]⟩
abbrev S256 : Shape := ⟨1, ![256]⟩
abbrev S_ : Shape := ⟨0, ![]⟩
abbrev S1 : Shape := ⟨1, ![1]⟩
abbrev S1x1 : Shape := ⟨2, ![1, 1]⟩
abbrev S16384x256 : Shape := ⟨2, ![16384, 256]⟩
abbrev S256x1 : Shape := ⟨2, ![256, 1]⟩
abbrev S256x256 : Shape := ⟨2, ![256, 256]⟩
abbrev S1x256 : Shape := ⟨2, ![1, 256]⟩
abbrev S4x1x1 : Shape := ⟨3, ![4, 1, 1]⟩
abbrev S4096x256 : Shape := ⟨2, ![4096, 256]⟩
abbrev S1x1x1 : Shape := ⟨3, ![1, 1, 1]⟩
abbrev S1x4096x256 : Shape := ⟨3, ![1, 4096, 256]⟩

abbrev nBuf : Space → Nat
  | .hbm => 187
  | .vmem => 6
  | .smem => 0
  | _ => 0

abbrev hbmTy0_0 (i : Nat) : BufTy := match i % 128 with
  | 0 => ⟨S100000x256, .f32⟩
  | 1 => ⟨S100000x256, .f32⟩
  | 2 => ⟨S100000, .f32⟩
  | 3 => ⟨S16384, .i32⟩
  | 4 => ⟨S16384x1, .i32⟩
  | 5 => ⟨S256, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x256, .f32⟩
  | 26 => ⟨S16384x256, .i1⟩
  | 27 => ⟨S_, .f32⟩
  | 28 => ⟨S16384x256, .f32⟩
  | 29 => ⟨S16384x256, .f32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S1, .i32⟩
  | 39 => ⟨S_, .i32⟩
  | 40 => ⟨S16384x1, .i32⟩
  | 41 => ⟨S16384x1, .i1⟩
  | 42 => ⟨S1x1, .i32⟩
  | 43 => ⟨S16384x1, .i32⟩
  | 44 => ⟨S16384x1, .i1⟩
  | 45 => ⟨S16384x1, .i1⟩
  | 46 => ⟨S_, .i1⟩
  | 47 => ⟨S16384, .i1⟩
  | 48 => ⟨S16384x256, .f32⟩
  | 49 => ⟨S16384x256, .i1⟩
  | 50 => ⟨S_, .f32⟩
  | 51 => ⟨S16384x256, .f32⟩
  | 52 => ⟨S16384x256, .f32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S1, .i32⟩
  | 62 => ⟨S_, .i32⟩
  | 63 => ⟨S16384x1, .i32⟩
  | 64 => ⟨S16384x1, .i1⟩
  | 65 => ⟨S1x1, .i32⟩
  | 66 => ⟨S16384x1, .i32⟩
  | 67 => ⟨S16384x1, .i1⟩
  | 68 => ⟨S16384x1, .i1⟩
  | 69 => ⟨S_, .i1⟩
  | 70 => ⟨S16384, .i1⟩
  | 71 => ⟨S16384, .f32⟩
  | 72 => ⟨S_, .f32⟩
  | 73 => ⟨S16384, .f32⟩
  | 74 => ⟨S16384, .f32⟩
  | 75 => ⟨S16384x256, .f32⟩
  | 76 => ⟨S_, .f32⟩
  | 77 => ⟨S16384, .f32⟩
  | 78 => ⟨S16384, .f32⟩
  | 79 => ⟨S_, .f32⟩
  | 80 => ⟨S16384, .f32⟩
  | 81 => ⟨S16384, .f32⟩
  | 82 => ⟨S16384, .f32⟩
  | 83 => ⟨S_, .f32⟩
  | 84 => ⟨S16384, .f32⟩
  | 85 => ⟨S16384, .f32⟩
  | 86 => ⟨S16384, .f32⟩
  | 87 => ⟨S16384, .f32⟩
  | 88 => ⟨S_, .f32⟩
  | 89 => ⟨S_, .f32⟩
  | 90 => ⟨S_, .f32⟩
  | 91 => ⟨S16384, .f32⟩
  | 92 => ⟨S16384, .f32⟩
  | 93 => ⟨S_, .f32⟩
  | 94 => ⟨S16384, .f32⟩
  | 95 => ⟨S16384, .f32⟩
  | 96 => ⟨S16384, .f32⟩
  | 97 => ⟨S16384, .f32⟩
  | 98 => ⟨S16384, .f32⟩
  | 99 => ⟨S_, .f32⟩
  | 100 => ⟨S16384, .f32⟩
  | 101 => ⟨S16384, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S_, .f32⟩
  | 112 => ⟨S_, .f32⟩
  | 113 => ⟨S_, .i32⟩
  | 114 => ⟨S256, .i32⟩
  | 115 => ⟨S256, .i1⟩
  | 116 => ⟨S_, .i32⟩
  | 117 => ⟨S256, .i32⟩
  | 118 => ⟨S256, .i32⟩
  | 119 => ⟨S256, .i32⟩
  | 120 => ⟨S256x1, .i32⟩
  | 121 => ⟨S1, .i32⟩
  | 122 => ⟨S_, .i32⟩
  | 123 => ⟨S256x1, .i32⟩
  | 124 => ⟨S256x1, .i1⟩
  | 125 => ⟨S1x1, .i32⟩
  | 126 => ⟨S256x1, .i32⟩
  | 127 => ⟨S256x1, .i1⟩
  | _ => ⟨S100000x256, .f32⟩

abbrev hbmTy0_1 (i : Nat) : BufTy := match i % 128 with
  | 0 => ⟨S256x1, .i1⟩
  | 1 => ⟨S_, .i1⟩
  | 2 => ⟨S256, .i1⟩
  | 3 => ⟨S256x256, .f32⟩
  | 4 => ⟨S256x256, .i1⟩
  | 5 => ⟨S_, .f32⟩
  | 6 => ⟨S256x256, .f32⟩
  | 7 => ⟨S256x256, .f32⟩
  | 8 => ⟨S_, .i32⟩
  | 9 => ⟨S256, .i32⟩
  | 10 => ⟨S256, .i1⟩
  | 11 => ⟨S_, .i32⟩
  | 12 => ⟨S256, .i32⟩
  | 13 => ⟨S256, .i32⟩
  | 14 => ⟨S256, .i32⟩
  | 15 => ⟨S256x1, .i32⟩
  | 16 => ⟨S1, .i32⟩
  | 17 => ⟨S_, .i32⟩
  | 18 => ⟨S256x1, .i32⟩
  | 19 => ⟨S256x1, .i1⟩
  | 20 => ⟨S1x1, .i32⟩
  | 21 => ⟨S256x1, .i32⟩
  | 22 => ⟨S256x1, .i1⟩
  | 23 => ⟨S256x1, .i1⟩
  | 24 => ⟨S_, .i1⟩
  | 25 => ⟨S256, .i1⟩
  | 26 => ⟨S256, .f32⟩
  | 27 => ⟨S_, .f32⟩
  | 28 => ⟨S256, .f32⟩
  | 29 => ⟨S256, .f32⟩
  | 30 => ⟨S256, .f32⟩
  | 31 => ⟨S_, .f32⟩
  | 32 => ⟨S256, .f32⟩
  | 33 => ⟨S256, .f32⟩
  | 34 => ⟨S256, .f32⟩
  | 35 => ⟨S_, .f32⟩
  | 36 => ⟨S256, .f32⟩
  | 37 => ⟨S256, .f32⟩
  | 38 => ⟨S256, .f32⟩
  | 39 => ⟨S256, .f32⟩
  | 40 => ⟨S_, .f32⟩
  | 41 => ⟨S_, .f32⟩
  | 42 => ⟨S_, .f32⟩
  | 43 => ⟨S256, .f32⟩
  | 44 => ⟨S256, .f32⟩
  | 45 => ⟨S_, .f32⟩
  | 46 => ⟨S256, .f32⟩
  | 47 => ⟨S256, .f32⟩
  | 48 => ⟨S256, .f32⟩
  | 49 => ⟨S256, .f32⟩
  | 50 => ⟨S256x256, .f32⟩
  | 51 => ⟨S256x256, .bf16⟩
  | 52 => ⟨S1x256, .f32⟩
  | 53 => ⟨S4x1x1, .f32⟩
  | 54 => ⟨S_, .f32⟩
  | 55 => ⟨S_, .f32⟩
  | 56 => ⟨S_, .f32⟩
  | 57 => ⟨S_, .f32⟩
  | 58 => ⟨S_, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S1x1x1, .f32⟩
  | .local _ .vmem, ⟨5, _⟩ => ⟨S1x1x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v2 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v3 : Ref sig .tc := ⟨.hbm, 74, rfl⟩
abbrev main_v4 : Ref sig .tc := ⟨.hbm, 75, rfl⟩
abbrev main_cst : Ref sig .tc := ⟨.hbm, 76, rfl⟩
abbrev main_v5 : Ref sig .tc := ⟨.hbm, 77, rfl⟩
abbrev main_v6 : Ref sig .tc := ⟨.hbm, 78, rfl⟩
abbrev main_cst_0 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_cst_1 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_cst_2 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_cst_3 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_cst_4 : Ref sig .tc := ⟨.hbm, 99, rfl⟩
abbrev main_v23 : Ref sig .tc := ⟨.hbm, 100, rfl⟩
abbrev main_v24 : Ref sig .tc := ⟨.hbm, 101, rfl⟩
abbrev main_cst_5 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_cst_6 : Ref sig .tc := ⟨.hbm, 111, rfl⟩
abbrev main_v33 : Ref sig .tc := ⟨.hbm, 112, rfl⟩
abbrev main_call3_c : Ref sig .tc := ⟨.hbm, 113, rfl⟩
abbrev main_call3_v0 : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_c_1 : Ref sig .tc := ⟨.hbm, 121, rfl⟩
abbrev main_call3_c_2 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_3 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_call3_cst : Ref sig .tc := ⟨.hbm, 133, rfl⟩
abbrev main_call3_v15 : Ref sig .tc := ⟨.hbm, 134, rfl⟩
abbrev main_v34 : Ref sig .tc := ⟨.hbm, 135, rfl⟩
abbrev main_call4_c : Ref sig .tc := ⟨.hbm, 136, rfl⟩
abbrev main_call4_v0 : Ref sig .tc := ⟨.hbm, 137, rfl⟩
abbrev main_call4_v1 : Ref sig .tc := ⟨.hbm, 138, rfl⟩
abbrev main_call4_c_0 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_c_1 : Ref sig .tc := ⟨.hbm, 144, rfl⟩
abbrev main_call4_c_2 : Ref sig .tc := ⟨.hbm, 145, rfl⟩
abbrev main_call4_v6 : Ref sig .tc := ⟨.hbm, 146, rfl⟩
abbrev main_call4_v7 : Ref sig .tc := ⟨.hbm, 147, rfl⟩
abbrev main_call4_v8 : Ref sig .tc := ⟨.hbm, 148, rfl⟩
abbrev main_call4_v9 : Ref sig .tc := ⟨.hbm, 149, rfl⟩
abbrev main_call4_v10 : Ref sig .tc := ⟨.hbm, 150, rfl⟩
abbrev main_call4_v11 : Ref sig .tc := ⟨.hbm, 151, rfl⟩
abbrev main_call4_c_3 : Ref sig .tc := ⟨.hbm, 152, rfl⟩
abbrev main_call4_v12 : Ref sig .tc := ⟨.hbm, 153, rfl⟩
abbrev main_call4_v13 : Ref sig .tc := ⟨.hbm, 154, rfl⟩
abbrev main_call4_cst : Ref sig .tc := ⟨.hbm, 155, rfl⟩
abbrev main_call4_v14 : Ref sig .tc := ⟨.hbm, 156, rfl⟩
abbrev main_v35 : Ref sig .tc := ⟨.hbm, 157, rfl⟩
abbrev main_v36 : Ref sig .tc := ⟨.hbm, 158, rfl⟩
abbrev main_cst_7 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_cst_8 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_cst_9 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_cst_10 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_cst_11 : Ref sig .tc := ⟨.hbm, 182, rfl⟩
abbrev main_v56 : Ref sig .tc := ⟨.hbm, 183, rfl⟩
abbrev main_v57 : Ref sig .tc := ⟨.hbm, 184, rfl⟩
abbrev main_cst_12 : Ref sig .tc := ⟨.hbm, 185, rfl⟩
abbrev main_v58 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x256_0 : S16384.BroadcastsInDim S16384x256 (![0] : Fin 1 → Fin S16384x256.rank)
  bcast_S_S16384x256 : S_.BroadcastsInDim S16384x256 (![] : Fin 0 → Fin S16384x256.rank)
  reducesTo_S16384x256_S16384_d1 : S16384x256.ReducesTo [1] S16384
  reducesTo_S16384_S_d0 : S16384.ReducesTo [0] S_
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1x1_S256x1_0_1 : S1x1.BroadcastsInDim S256x1 (![0, 1] : Fin 2 → Fin S256x1.rank)
  reducesTo_S256x1_S256_d1 : S256x1.ReducesTo [1] S256
  bcast_S256_S256x256_0 : S256.BroadcastsInDim S256x256 (![0] : Fin 1 → Fin S256x256.rank)
  bcast_S_S256x256 : S_.BroadcastsInDim S256x256 (![] : Fin 0 → Fin S256x256.rank)
  transposes_S256x256_S256x256_1_0 : S256x256.Transposes [1, 0] S256x256
  bitsLt_bf16_f32 : FTy.bits .bf16 < FTy.bits .f32
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S4096x256_S1x4096x256 : S4096x256.ShapeCasts S1x4096x256
  reduces_S1x4096x256_S1 : S1x4096x256.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S4x1x1_S_d0_1_2 : S4x1x1.ReducesTo [0, 1, 2] S_
  gather_S100000x256_S16384x1_S16384x256_1_0_n_n_0_1_1256_wf : GatherDims.WF S100000x256 S16384x1 S16384x256 [1] [0] [] [0] [] 1 ![1, 256]
  gather_S100000_S16384x1_S16384_n_0_n_n_0_1_1_wf : GatherDims.WF S100000 S16384x1 S16384 [] [0] [] [0] [] 1 ![1]
  gather_S100000x256_S256x1_S256x256_1_0_n_n_0_1_1256_wf : GatherDims.WF S100000x256 S256x1 S256x256 [1] [0] [] [0] [] 1 ![1, 256]
  gather_S100000_S256x1_S256_n_0_n_n_0_1_1_wf : GatherDims.WF S100000 S256x1 S256 [] [0] [] [0] [] 1 ![1]
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4x1x1.size a
  hwx0_3 : ∀ i : grid0.Coords, EltTy.bits .f32 = 32 ∨ (Rect.block (s := S4x1x1) S1x1x1.size (cc0_transform_3 i) (hinb0_3 i)).WholeWords (EltTy.packing .f32)

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def gather_S100000x256_S256x1_S256x256_1_0_n_n_0_1_1256 : GatherDims S100000x256 S256x1 S256x256 where
  offsetDims := [1]
  collapsedSliceDims := [0]
  operandBatchingDims := []
  startIndicesBatchingDims := []
  startIndexMap := [0]
  indexVectorDim := 1
  sliceSizes := ![1, 256]
  wf := gather_S100000x256_S256x1_S256x256_1_0_n_n_0_1_1256_wf
def gather_S100000_S256x1_S256_n_0_n_n_0_1_1 : GatherDims S100000 S256x1 S256 where
  offsetDims := []
  collapsedSliceDims := [0]
  operandBatchingDims := []
  startIndicesBatchingDims := []
  startIndexMap := [0]
  indexVectorDim := 1
  sliceSizes := ![1]
  wf := gather_S100000_S256x1_S256_n_0_n_n_0_1_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000 : Shape := ⟨1, ![100000]⟩
abbrev S16384 : Shape := ⟨1, ![16384]⟩
abbrev S16384x1 : Shape := ⟨2, ![16384, 1]⟩
abbrev S256 : Shape := ⟨1, ![256]⟩
abbrev S_ : Shape := ⟨0, ![]⟩
abbrev S16384x256 : Shape := ⟨2, ![16384, 256]⟩
abbrev S256x1 : Shape := ⟨2, ![256, 1]⟩
abbrev S256x256 : Shape := ⟨2, ![256, 256]⟩
abbrev S1x256 : Shape := ⟨2, ![1, 256]⟩

abbrev nBuf : Space → Nat
  | .hbm => 133
  | .vmem => 0
  | .smem => 0
  | _ => 0

abbrev hbmTy0_0 (i : Nat) : BufTy := match i % 128 with
  | 0 => ⟨S100000x256, .f32⟩
  | 1 => ⟨S100000x256, .f32⟩
  | 2 => ⟨S100000, .f32⟩
  | 3 => ⟨S16384, .i32⟩
  | 4 => ⟨S16384x1, .i32⟩
  | 5 => ⟨S256, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S16384x256, .f32⟩
  | 15 => ⟨S16384, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S16384x256, .f32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S16384, .f32⟩
  | 34 => ⟨S16384x256, .f32⟩
  | 35 => ⟨S_, .f32⟩
  | 36 => ⟨S16384, .f32⟩
  | 37 => ⟨S16384, .f32⟩
  | 38 => ⟨S16384, .f32⟩
  | 39 => ⟨S_, .f32⟩
  | 40 => ⟨S16384, .f32⟩
  | 41 => ⟨S16384, .f32⟩
  | 42 => ⟨S16384, .f32⟩
  | 43 => ⟨S_, .f32⟩
  | 44 => ⟨S16384, .f32⟩
  | 45 => ⟨S16384, .f32⟩
  | 46 => ⟨S16384, .f32⟩
  | 47 => ⟨S16384, .f32⟩
  | 48 => ⟨S_, .f32⟩
  | 49 => ⟨S_, .f32⟩
  | 50 => ⟨S_, .f32⟩
  | 51 => ⟨S16384, .f32⟩
  | 52 => ⟨S16384, .f32⟩
  | 53 => ⟨S_, .f32⟩
  | 54 => ⟨S16384, .f32⟩
  | 55 => ⟨S16384, .f32⟩
  | 56 => ⟨S16384, .f32⟩
  | 57 => ⟨S16384, .f32⟩
  | 58 => ⟨S_, .i32⟩
  | 59 => ⟨S256, .i32⟩
  | 60 => ⟨S256, .i1⟩
  | 61 => ⟨S_, .i32⟩
  | 62 => ⟨S256, .i32⟩
  | 63 => ⟨S256, .i32⟩
  | 64 => ⟨S256, .i32⟩
  | 65 => ⟨S256x1, .i32⟩
  | 66 => ⟨S256x256, .f32⟩
  | 67 => ⟨S_, .i32⟩
  | 68 => ⟨S256, .i32⟩
  | 69 => ⟨S256, .i1⟩
  | 70 => ⟨S_, .i32⟩
  | 71 => ⟨S256, .i32⟩
  | 72 => ⟨S256, .i32⟩
  | 73 => ⟨S256, .i32⟩
  | 74 => ⟨S256x1, .i32⟩
  | 75 => ⟨S256, .f32⟩
  | 76 => ⟨S16384x256, .f32⟩
  | 77 => ⟨S1x256, .f32⟩
  | 78 => ⟨S16384x256, .f32⟩
  | 79 => ⟨S16384x256, .f32⟩
  | 80 => ⟨S256, .f32⟩
  | 81 => ⟨S_, .f32⟩
  | 82 => ⟨S256, .f32⟩
  | 83 => ⟨S256, .f32⟩
  | 84 => ⟨S256, .f32⟩
  | 85 => ⟨S_, .f32⟩
  | 86 => ⟨S256, .f32⟩
  | 87 => ⟨S256, .f32⟩
  | 88 => ⟨S256, .f32⟩
  | 89 => ⟨S256, .f32⟩
  | 90 => ⟨S_, .f32⟩
  | 91 => ⟨S_, .f32⟩
  | 92 => ⟨S_, .f32⟩
  | 93 => ⟨S256, .f32⟩
  | 94 => ⟨S256, .f32⟩
  | 95 => ⟨S_, .f32⟩
  | 96 => ⟨S256, .f32⟩
  | 97 => ⟨S256, .f32⟩
  | 98 => ⟨S256, .f32⟩
  | 99 => ⟨S1x256, .f32⟩
  | 100 => ⟨S16384x256, .f32⟩
  | 101 => ⟨S16384x256, .f32⟩
  | 102 => ⟨S_, .f32⟩
  | 103 => ⟨S16384, .f32⟩
  | 104 => ⟨S16384, .f32⟩
  | 105 => ⟨S_, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S_, .f32⟩
  | 115 => ⟨S16384x256, .f32⟩
  | 116 => ⟨S16384x256, .f32⟩
  | 117 => ⟨S_, .f32⟩
  | 118 => ⟨S16384x256, .f32⟩
  | 119 => ⟨S16384x256, .f32⟩
  | 120 => ⟨S16384x256, .f32⟩
  | 121 => ⟨S16384x256, .f32⟩
  | 122 => ⟨S16384x256, .f32⟩
  | 123 => ⟨S16384x256, .f32⟩
  | 124 => ⟨S16384x256, .f32⟩
  | 125 => ⟨S16384x256, .f32⟩
  | 126 => ⟨S_, .f32⟩
  | 127 => ⟨S16384, .f32⟩
  | _ => ⟨S100000x256, .f32⟩

abbrev hbmTy0_1 (i : Nat) : BufTy := match i % 128 with
  | 0 => ⟨S16384, .f32⟩
  | 1 => ⟨S_, .f32⟩
  | 2 => ⟨S_, .f32⟩
  | 3 => ⟨S_, .f32⟩
  | 4 => ⟨S_, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_c_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_cst_18 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_19 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_21 : Ref sig .tc := ⟨.hbm, 126, rfl⟩
abbrev main_v97 : Ref sig .tc := ⟨.hbm, 127, rfl⟩
abbrev main_v98 : Ref sig .tc := ⟨.hbm, 128, rfl⟩
abbrev main_cst_22 : Ref sig .tc := ⟨.hbm, 129, rfl⟩
abbrev main_v99 : Ref sig .tc := ⟨.hbm, 130, rfl⟩
abbrev main_cst_23 : Ref sig .tc := ⟨.hbm, 131, rfl⟩
abbrev main_v100 : Ref sig .tc := ⟨.hbm, 132, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x1_S16384 : S16384x1.ShapeCasts S16384
  reducesTo_S16384x256_S16384_d1 : S16384x256.ReducesTo [1] S16384
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  reducesTo_S16384_S_d0 : S16384.ReducesTo [0] S_
  gather_S100000x256_S16384x1_S16384x256_1_0_n_n_0_1_1256_wf : GatherDims.WF S100000x256 S16384x1 S16384x256 [1] [0] [] [0] [] 1 ![1, 256]
  gather_S100000_S16384x1_S16384_n_0_n_n_0_1_1_wf : GatherDims.WF S100000 S16384x1 S16384 [] [0] [] [0] [] 1 ![1]
  gather_S100000x256_S256x1_S256x256_1_0_n_n_0_1_1256_wf : GatherDims.WF S100000x256 S256x1 S256x256 [1] [0] [] [0] [] 1 ![1, 256]
  gather_S100000_S256x1_S256_n_0_n_n_0_1_1_wf : GatherDims.WF S100000 S256x1 S256 [] [0] [] [0] [] 1 ![1]
  dot_S16384x256_S256x256_S16384x256_1_1_0_0_n_n_wf : DotDims.WF S16384x256 S256x256 S16384x256 [1] [1] [0] [0] [] []

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def gather_S100000x256_S256x1_S256x256_1_0_n_n_0_1_1256 : GatherDims S100000x256 S256x1 S256x256 where
  offsetDims := [1]
  collapsedSliceDims := [0]
  operandBatchingDims := []
  startIndicesBatchingDims := []
  startIndexMap := [0]
  indexVectorDim := 1
  sliceSizes := ![1, 256]
  wf := gather_S100000x256_S256x1_S256x256_1_0_n_n_0_1_1256_wf
def gather_S100000_S256x1_S256_n_0_n_n_0_1_1 : GatherDims S100000 S256x1 S256 where
  offsetDims := []
  collapsedSliceDims := [0]
  operandBatchingDims := []
  startIndicesBatchingDims := []
  startIndexMap := [0]
  indexVectorDim := 1
  sliceSizes := ![1]
  wf := gather_S100000_S256x1_S256_n_0_n_n_0_1_1_wf
def dot_S16384x256_S256x256_S16384x256_1_1_0_0_n_n : DotDims S16384x256 S256x256 S16384x256 where
  lhsContracting := [1]
  rhsContracting := [1]
  lhsNonContracting := [0]
  rhsNonContracting := [0]
  lhsBatch := []
  rhsBatch := []
  wf := dot_S16384x256_S256x256_S16384x256_1_1_0_0_n_n_wf

class Facts : Prop extends Facts₀ where

variable [Facts]
-- ==== Proof.KernelValue.lean ====
import proofs.«421180_j90615220011778_2_alg».proof.Proof.Gen.KernelIdeal.Frame
import Idealize.ShloMosaic.Lib.Pipeline.Value
import Idealize.ShloMosaic.Lib.ValueIdx
import Idealize.ShloMosaic.Lib.StableHlo.Run

/-!
# What the kernel's run leaves in its two results

The grid has four points; point `t` stages rows `4096 t … 4096 t + 4095` of the embedded batch, the whole transposed
candidate-weight matrix and the whole bias row, and writes one number — the tile's total — into entry `t` of a
`[4, 1, 1]` array. After the region the program sums that array, adds the total of the true-logit terms and divides by
the batch size. The first result is the embedded batch itself, which the region only reads.
-/

set_option maxRecDepth 16384

noncomputable section

namespace Cert.KernelIdeal.NceValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The embedded batch, the transposed candidate weights, the bias row and the true-term total, as the region finds them. -/
abbrev embArr (c : Dev nD) : FVec Ideal S16384x256 .f32 := V m c main_v1
abbrev wtArr (c : Dev nD) : FVec Ideal S256x256 .bf16 := V m c main_v53
abbrev biasArr (c : Dev nD) : FVec Ideal S1x256 .f32 := V m c main_v54
abbrev trueTotal (c : Dev nD) : FVec Ideal S_ .f32 := V m c main_v33

/-- Rows `4096 t …` of the embedded batch: tile `t`'s block. -/
def embBlock (c : Dev nD) (t : Fin 4) : FVec Ideal S4096x256 .f32 :=
  fun y => embArr m c (ValueIdx.ix2 ⟨4096 * t.val + (y 0).val, by have := (y 0).isLt; have : S4096x256.size 0 = 4096 := rfl; omega⟩ ⟨(y 1).val, (y 1).isLt⟩)

/-- Tile `t`'s total: the body's one stored number, of the tile's block, the weights and the bias row. -/
def tileTotal (c : Dev nD) (t : Fin 4) : EReal :=
  k0_pay1 (F := Ideal) (embBlock m c t) (wtArr m c) (biasArr m c) (ValueIdx.ix3 0 0 0)

/-- The `[4, 1, 1]` array of tile totals. -/
def tileTotals (c : Dev nD) : FVec Ideal S4x1x1 .f32 := fun i => tileTotal m c ⟨(i 0).val, (i 0).isLt⟩

/-- The cost the program returns: (true-term total + sum of the tile totals) / 16384. -/
def cost (c : Dev nD) : FVec Ideal S_ .f32 :=
  Host.divf (addf (trueTotal m c) (Host.reduceAdd (tileTotals m c) (constant S_ .f32 0x00000000#32) reducesTo_S4x1x1_S_d0_1_2 h_S_))
    (constant S_ .f32 0x46800000#32)

/-- The grid's points are `0 … 3`. -/
def pt (t : Fin cfg0.N) : Fin 4 := ⟨t.val, t.isLt.trans_eq N_0⟩

/-- Window 0's block index at point `t` is `(t, 0)`. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Window 1's block index is `(0, 0)` at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Window 2's block index is `(0, 0)` at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Point `t` stages rows `4096 t …` of the embedded batch. -/
theorem iblk0_eq (c : Dev nD) (t : Fin cfg0.N) : iblk m c 0 t = embBlock m c (pt t) := by
  unfold iblk
  funext y
  obtain ⟨e0, e1⟩ := idx0 t
  show V m c main_v1 (((cfg0.win 0).blk t).view.emb y) = V m c main_v1 _
  refine congrArg (V m c main_v1) (funext fun a => Fin.ext ?_)
  match a with
  | ⟨0, _⟩ => show win0_0.index t (0 : Fin 2) * 4096 + 1 * (y 0).val = 4096 * t.val + (y 0).val; omega
  | ⟨1, _⟩ => show win0_0.index t (1 : Fin 2) * 256 + 1 * (y 1).val = (y 1).val; omega

/-- Every point stages the whole weight matrix. -/
theorem iblk1_eq (c : Dev nD) (t : Fin cfg0.N) : iblk m c 1 t = wtArr m c := by
  unfold iblk
  funext y
  obtain ⟨e0, e1⟩ := idx1 t
  show V m c main_v53 (((cfg0.win 1).blk t).view.emb y) = V m c main_v53 y
  refine congrArg (V m c main_v53) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- Every point stages the whole bias row. -/
theorem iblk2_eq (c : Dev nD) (t : Fin cfg0.N) : iblk m c 2 t = biasArr m c := by
  unfold iblk
  funext y
  obtain ⟨e0, e1⟩ := idx2 t
  show V m c main_v54 (((cfg0.win 2).blk t).view.emb y) = V m c main_v54 y
  refine congrArg (V m c main_v54) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The all-zero offsets of ranks 2 and 3, however spelt. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- Window 3's block index at point `t` is `(t, 0, 0)`. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)

/-- A `[1, 1, 1]` block has one index. -/
theorem unitIdx (j : S1x1x1.Idx) : j = (ValueIdx.ix3 0 0 0 : S1x1x1.Idx) := by
  funext a; apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- The array of tile totals at an index, and a tile's total, spelt out. -/
theorem tileTotals_apply (c : Dev nD) (i : S4x1x1.Idx) : tileTotals m c i = tileTotal m c ⟨(i 0).val, (i 0).isLt⟩ := rfl
theorem tileTotal_def (c : Dev nD) (s : Fin 4) :
    k0_pay1 (F := Ideal) (embBlock m c s) (wtArr m c) (biasArr m c) (ValueIdx.ix3 0 0 0) = tileTotal m c s := rfl

/-- Window 3 is never cut: what a point writes back of a block `P` is block `t` of an array `G` as soon as `P` is `G` read
    through the block, entry by entry (stated over any `P`, `G`). -/
theorem flushed_of_apply (t : Fin cfg0.N) (P : Vec Ideal S1x1x1 .f32) (G : FVec Ideal S4x1x1 .f32)
    (h : ∀ j : S1x1x1.Idx, P j = G (((cfg0.win 3).blk t).view.emb j)) :
    (cfg0.win 3).cut (grid0.coords t) P = ((cfg0.win 3).blk t).view.read (Elt Ideal) G := by
  funext j
  exact h j

/-- What point `t` writes back is block `t` of the array of tile totals. -/
theorem flushed3_eq (c : Dev nD) (t : Fin cfg0.N) :
    (dats m 0 c).flushed 3 t = ((cfg0.win 3).blk t).view.read (Elt Ideal) (tileTotals m c) := by
  show (cfg0.win 3).cut (grid0.coords t) ((dats m 0 c).after 3 t) = _
  rw [after0_3]
  unfold out0_3
  rw [View.canon_unit_zero zeros3]
  simp only [View.ld_unit_zero (S := S4096x256) zeros2, View.ld_unit_zero (S := S256x256) zeros2, View.ld_unit_zero (S := S1x256) zeros2]
  rw [iblk0_eq, iblk1_eq, iblk2_eq]
  obtain ⟨e0, e1, e2⟩ := idx3 t
  refine flushed_of_apply t _ (tileTotals m c) (fun j => ?_)
  rw [tileTotals_apply]
  have hj : (pt t).val = (((cfg0.win 3).blk t).view.emb j 0).val := by
    have h : (j 0).val < 1 := (j 0).isLt
    show t.val = win0_3.index t (0 : Fin 3) * 1 + 1 * (j 0).val
    omega
  refine Eq.trans ?_ (congrArg (tileTotal m c) (Fin.ext hj))
  exact (congrArg (k0_pay1 (F := Ideal) (embBlock m c (pt t)) (wtArr m c) (biasArr m c)) (unitIdx j)).trans (tileTotal_def m c (pt t))

/-- An index of the array is in point `t`'s block iff each coordinate is in the block's range on its axis. -/
theorem mem_blk3 (t : Fin cfg0.N) (i : S4x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v55).slice (win0_3.rect t)).set ↔ _
  rw [View.set_slice_whole, Rect.mem_set_unit]
  exact Iff.rfl

/-- Entry `i` of the array is in the block of point `i 0`. -/
theorem cover3 (i : S4x1x1.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 1 := (i 2).isLt
  obtain ⟨e0, e1, e2⟩ := idx3 ⟨(i 0).val, hi0.trans_eq N_0.symm⟩
  refine ⟨⟨(i 0).val, hi0.trans_eq N_0.symm⟩, flush0_3 _, ?_⟩
  rw [mem_blk3]
  intro a
  match a with
  | ⟨0, _⟩ => show win0_3.index ⟨(i 0).val, hi0.trans_eq N_0.symm⟩ (0 : Fin 3) * 1 ≤ (i 0).val ∧ (i 0).val < win0_3.index ⟨(i 0).val, hi0.trans_eq N_0.symm⟩ (0 : Fin 3) * 1 + 1; simp only [] at e0; omega
  | ⟨1, _⟩ => show win0_3.index ⟨(i 0).val, hi0.trans_eq N_0.symm⟩ (1 : Fin 3) * 1 ≤ (i 1).val ∧ (i 1).val < win0_3.index ⟨(i 0).val, hi0.trans_eq N_0.symm⟩ (1 : Fin 3) * 1 + 1; omega
  | ⟨2, _⟩ => show win0_3.index ⟨(i 0).val, hi0.trans_eq N_0.symm⟩ (2 : Fin 3) * 1 ≤ (i 2).val ∧ (i 2).val < win0_3.index ⟨(i 0).val, hi0.trans_eq N_0.symm⟩ (2 : Fin 3) * 1 + 1; omega

/-- After the run the `[4, 1, 1]` array holds the four tile totals: its four one-entry blocks tile it. -/
theorem totals_eq (c : Dev nD) : (dats m 0 c).arrAt 3 cfg0.N = tileTotals m c := by
  exact (dats m 0 c).arrAt_eq_of_cover 3 (tileTotals m c) (fun t _ => flushed3_eq m c t) cover3

/-- The lines after the region: sum of the array, plus the true-term total, over 16384. -/
theorem tail_eq (c : Dev nD) :
    Pipeline.afterTail₀ cfgs (dats m) 0 (V0 m) [hostOps1] c main_v58 = cost m c := by
  unfold Pipeline.afterTail₀
  show StableHlo.after hostOps1 _ (Proc.devRef .tc main_v58) = _
  after_results
  have h55 : Pipeline.withArrays (cfgs 0).spec c (V0 m c) (fun w => (dats m 0 c).arrAt w (cfgs 0).N) (Proc.devRef .tc main_v55)
      = tileTotals m c :=
    (Pipeline.withArrays_arr spec0 launch0.win.arr_inj c _ _ 3).trans (totals_eq m c)
  have h33 : Pipeline.withArrays (cfgs 0).spec c (V0 m c) (fun w => (dats m 0 c).arrAt w (cfgs 0).N) (Proc.devRef .tc main_v33)
      = trueTotal m c :=
    Pipeline.withArrays_of_ne _ c (V0 m c) _ main_v33 (by exact (by decide : ∀ w, Pipeline.arrRef spec0 w ≠ main_v33))
  rw [h55, h33]
  rfl

/-- The run, read: the first result is the embedded batch, the second the cost; the arguments are unchanged. -/
theorem run : θ_run defs (onTc (τ := τ) (main (F := Ideal))) ⟨m, fun _ => 0, ρ⟩ fun r => ∀ c : Dev nD,
      r.2.mem ((c.tc : Thread nD τ).loc main_v1) = embArr m c
      ∧ r.2.mem ((c.tc : Thread nD τ).loc main_v58) = cost m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun r h c => ⟨((h c).1 0).trans (((dats m 0 c).arrAt_in 0 rfl _).trans (A_eq m c 0)),
      ((h c).2 main_v58 (Pipeline.mem_restRefs_of main_v58 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.NceValue

end
-- ==== Proof.HostChains.lean ====
import proofs.«421180_j90615220011778_2_alg».proof.Proof.Gen.KernelIdeal
import Idealize.ShloMosaic.PureOps

/-!
# The host arithmetic both programs share, named once

Both programs turn an index vector into log-priors `log (256 · (log (k + 2) − log (k + 1)) / log 100001)`, and turn the
embedded rows, the labels' weight rows, the labels' biases and the labels into the per-example true-logit term, by the
same operations in the same order. They are named here as functions of the looked-up arrays, so that neither is ever
opened: only what goes into them is compared. A guarded lookup — wrapped index, range test, fill value where the test
fails — is spelt out once per shape, as the program prints it.
-/

noncomputable section

namespace Cert.KernelIdeal.NceHost

open Cert.KernelIdeal Cert.KernelIdeal.Gen
open Idealize.ShloMosaic

section Chains
variable {F : FTy → Type} [FloatOps F]

/-- The log-prior of 16384 indices `k`: `log (256 · (log (k + 2) − log (k + 1)) / log 100001)`. -/
def prior16384 (ids : IVec S16384 32) : FVec F S16384 .f32 :=
  Host.log (mulf (broadcastInDim S16384 ![] bcast_S_S16384 (constant S_ .f32 0x43800000#32)) (Host.divf (subf (Host.log (addf (sitofp .f32 ids) (broadcastInDim S16384 ![] bcast_S_S16384 (constant S_ .f32 0x40000000#32)))) (Host.log (addf (sitofp .f32 ids) (broadcastInDim S16384 ![] bcast_S_S16384 (constant S_ .f32 0x3F800000#32))))) (broadcastInDim S16384 ![] bcast_S_S16384 (id (Host.log (constant S_ .f32 0x47C35080#32))))))

/-- The same of 256 indices. -/
def prior256 (ids : IVec S256 32) : FVec F S256 .f32 :=
  Host.log (mulf (broadcastInDim S256 ![] bcast_S_S256 (constant S_ .f32 0x43800000#32)) (Host.divf (subf (Host.log (addf (sitofp .f32 ids) (broadcastInDim S256 ![] bcast_S_S256 (constant S_ .f32 0x40000000#32)))) (Host.log (addf (sitofp .f32 ids) (broadcastInDim S256 ![] bcast_S_S256 (constant S_ .f32 0x3F800000#32))))) (broadcastInDim S256 ![] bcast_S_S256 (id (Host.log (constant S_ .f32 0x47C35080#32))))))

/-- The true logit of each example — the embedded row's dot product with its label's weight row, plus the label's bias,
    less the label's log-prior — and its cross-entropy against the label `1`: `max l 0 − l · 1 + log (1 + e^(−|l|))`. -/
def trueTerms (e w : FVec F S16384x256 .f32) (b : FVec F S16384 .f32) (ids : IVec S16384 32) : FVec F S16384 .f32 :=
  addf
    (subf
      (maximumf (subf (addf (Host.reduceAdd (mulf e w) (constant S_ .f32 0x00000000#32) reducesTo_S16384x256_S16384_d1 h_S_) b) (prior16384 ids))
        (broadcastInDim S16384 ![] bcast_S_S16384 (constant S_ .f32 0x00000000#32)))
      (mulf (subf (addf (Host.reduceAdd (mulf e w) (constant S_ .f32 0x00000000#32) reducesTo_S16384x256_S16384_d1 h_S_) b) (prior16384 ids))
        (broadcastInDim S16384 ![] bcast_S_S16384 (constant S_ .f32 0x3F800000#32))))
    (Host.log1p (Host.exp (Host.negf (Host.absf
      (subf (addf (Host.reduceAdd (mulf e w) (constant S_ .f32 0x00000000#32) reducesTo_S16384x256_S16384_d1 h_S_) b) (prior16384 ids))))))

/-- A guarded lookup of 16384 rows of a `[100000, 256]` table, as printed. -/
def guardedRows16384 (x : FVec F S100000x256 .f32) (ids : IVec S16384 32) : FVec F S16384x256 .f32 :=
  select (broadcastInDim S16384x256 ![0] bcast_S16384_S16384x256_0 (Host.reduce IntOp.andi (andi (cmpi .sge (broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 100000#32))) ids)) (broadcastInDim S16384x1 ![] bcast_S_S16384x1 (constantI S_ 32 0#32))) (cmpi .sle (broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 100000#32))) ids)) (broadcastInDim S16384x1 ![0, 1] bcast_S1x1_S16384x1_0_1 (broadcastInDim S1x1 ![1] bcast_S1_S1x1_1 (constantI S1 32 99999#32))))) (constantI S_ 1 1#1) reducesTo_S16384x1_S16384_d1 h_S_)) (Host.gather gather_S100000x256_S16384x1_S16384x256_1_0_n_n_0_1_1256 x (broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 100000#32))) ids))) (broadcastInDim S16384x256 ![] bcast_S_S16384x256 (constant S_ .f32 0x7FC00000#32))

/-- A guarded lookup of 16384 entries of a `[100000]` table, as printed. -/
def guardedEntries16384 (x : FVec F S100000 .f32) (ids : IVec S16384 32) : FVec F S16384 .f32 :=
  select (Host.reduce IntOp.andi (andi (cmpi .sge (broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 100000#32))) ids)) (broadcastInDim S16384x1 ![] bcast_S_S16384x1 (constantI S_ 32 0#32))) (cmpi .sle (broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 100000#32))) ids)) (broadcastInDim S16384x1 ![0, 1] bcast_S1x1_S16384x1_0_1 (broadcastInDim S1x1 ![1] bcast_S1_S1x1_1 (constantI S1 32 99999#32))))) (constantI S_ 1 1#1) reducesTo_S16384x1_S16384_d1 h_S_) (Host.gather gather_S100000_S16384x1_S16384_n_0_n_n_0_1_1 x (broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 100000#32))) ids))) (broadcastInDim S16384 ![] bcast_S_S16384 (constant S_ .f32 0x7FC00000#32))

/-- A guarded lookup of 256 rows of a `[100000, 256]` table, as printed. -/
def guardedRows256 (x : FVec F S100000x256 .f32) (ids : IVec S256 32) : FVec F S256x256 .f32 :=
  select (broadcastInDim S256x256 ![0] bcast_S256_S256x256_0 (Host.reduce IntOp.andi (andi (cmpi .sge (broadcastInDim S256x1 ![0] bcast_S256_S256x1_0 (select (cmpi .slt ids (broadcastInDim S256 ![] bcast_S_S256 (constantI S_ 32 0#32))) (addi ids (broadcastInDim S256 ![] bcast_S_S256 (constantI S_ 32 100000#32))) ids)) (broadcastInDim S256x1 ![] bcast_S_S256x1 (constantI S_ 32 0#32))) (cmpi .sle (broadcastInDim S256x1 ![0] bcast_S256_S256x1_0 (select (cmpi .slt ids (broadcastInDim S256 ![] bcast_S_S256 (constantI S_ 32 0#32))) (addi ids (broadcastInDim S256 ![] bcast_S_S256 (constantI S_ 32 100000#32))) ids)) (broadcastInDim S256x1 ![0, 1] bcast_S1x1_S256x1_0_1 (broadcastInDim S1x1 ![1] bcast_S1_S1x1_1 (constantI S1 32 99999#32))))) (constantI S_ 1 1#1) reducesTo_S256x1_S256_d1 h_S_)) (Host.gather gather_S100000x256_S256x1_S256x256_1_0_n_n_0_1_1256 x (broadcastInDim S256x1 ![0] bcast_S256_S256x1_0 (select (cmpi .slt ids (broadcastInDim S256 ![] bcast_S_S256 (constantI S_ 32 0#32))) (addi ids (broadcastInDim S256 ![] bcast_S_S256 (constantI S_ 32 100000#32))) ids))) (broadcastInDim S256x256 ![] bcast_S_S256x256 (constant S_ .f32 0x7FC00000#32))

/-- A guarded lookup of 256 entries of a `[100000]` table, as printed. -/
def guardedEntries256 (x : FVec F S100000 .f32) (ids : IVec S256 32) : FVec F S256 .f32 :=
  select (Host.reduce IntOp.andi (andi (cmpi .sge (broadcastInDim S256x1 ![0] bcast_S256_S256x1_0 (select (cmpi .slt ids (broadcastInDim S256 ![] bcast_S_S256 (constantI S_ 32 0#32))) (addi ids (broadcastInDim S256 ![] bcast_S_S256 (constantI S_ 32 100000#32))) ids)) (broadcastInDim S256x1 ![] bcast_S_S256x1 (constantI S_ 32 0#32))) (cmpi .sle (broadcastInDim S256x1 ![0] bcast_S256_S256x1_0 (select (cmpi .slt ids (broadcastInDim S256 ![] bcast_S_S256 (constantI S_ 32 0#32))) (addi ids (broadcastInDim S256 ![] bcast_S_S256 (constantI S_ 32 100000#32))) ids)) (broadcastInDim S256x1 ![0, 1] bcast_S1x1_S256x1_0_1 (broadcastInDim S1x1 ![1] bcast_S1_S1x1_1 (constantI S1 32 99999#32))))) (constantI S_ 1 1#1) reducesTo_S256x1_S256_d1 h_S_) (Host.gather gather_S100000_S256x1_S256_n_0_n_n_0_1_1 x (broadcastInDim S256x1 ![0] bcast_S256_S256x1_0 (select (cmpi .slt ids (broadcastInDim S256 ![] bcast_S_S256 (constantI S_ 32 0#32))) (addi ids (broadcastInDim S256 ![] bcast_S_S256 (constantI S_ 32 100000#32))) ids))) (broadcastInDim S256 ![] bcast_S_S256 (constant S_ .f32 0x7FC00000#32))

end Chains

end Cert.KernelIdeal.NceHost

end
-- ==== Proof.HostStages.lean ====
import proofs.«421180_j90615220011778_2_alg».proof.Proof.Gen.KernelIdeal.Launch
import proofs.«421180_j90615220011778_2_alg».proof.Proof.HostChains
import Idealize.ShloMosaic.Lib.StableHlo.Run

/-!
# The host operations before the region, one stretch at a time

The program's host operations before its region come in eight stretches: the labels reshaped; five guarded lookups,
each a stretch of its own; the true-logit side down to its total; and the candidate side down to the staged weights and
bias row. Whatever the buffers hold when a stretch is entered (`W`), the buffer a stretch is read for holds afterwards
that stretch's operations of what `W` holds at the buffers the stretch reads.
-/

set_option maxRecDepth 16384

noncomputable section

namespace Cert.KernelIdeal.NceHost

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

-- Each fact below compares two spellings of one term that differ only by transports along computed type equalities;
-- the array operations themselves are never to be opened (a reduction opened is a fold over every index of its operand).
attribute [local irreducible] Host.reduce Host.gather broadcastInDim

/-- The labels as a vector: the `[16384, 1]` input reshaped. -/
theorem stage_labels :
    after hostOps0 W (Proc.devRef .tc main_v0) = shapeCast _ (W (Proc.devRef .tc main_arg4)) shapeCasts_S16384x1_S16384 := by
  simp only [hostOps0]
  after_results <;> rfl

set_option maxHeartbeats 4000000 in
/-- The embedded batch: the guarded lookup of the inputs' rows in the embedding table. -/
theorem stage_emb :
    after hostOps0_1 W (Proc.devRef .tc main_v1) = guardedRows16384 (W (Proc.devRef .tc main_arg0)) (W (Proc.devRef .tc main_arg3)) := by
  simp only [hostOps0_1]
  after_results <;> rfl

set_option maxHeartbeats 4000000 in
/-- The labels' weight rows. -/
theorem stage_trueW :
    after hostOps0_2 W (Proc.devRef .tc main_v2) = guardedRows16384 (W (Proc.devRef .tc main_arg1)) (W (Proc.devRef .tc main_v0)) := by
  simp only [hostOps0_2]
  after_results <;> rfl

set_option maxHeartbeats 4000000 in
/-- The labels' biases. -/
theorem stage_trueB :
    after hostOps0_3 W (Proc.devRef .tc main_v3) = guardedEntries16384 (W (Proc.devRef .tc main_arg2)) (W (Proc.devRef .tc main_v0)) := by
  simp only [hostOps0_3]
  after_results <;> rfl

set_option maxHeartbeats 4000000 in
/-- The total of the true-logit terms: the sum over the examples of the shared per-example term. -/
theorem stage_trueTotal :
    after hostOps0_4 W (Proc.devRef .tc main_v33)
      = Host.reduceAdd (trueTerms (W (Proc.devRef .tc main_v1)) (W (Proc.devRef .tc main_v2)) (W (Proc.devRef .tc main_v3)) (W (Proc.devRef .tc main_v0)))
          (constant S_ .f32 0x00000000#32) reducesTo_S16384_S_d0 h_S_ := by
  simp only [hostOps0_4]
  after_results_simp <;> rfl

set_option maxHeartbeats 4000000 in
/-- The candidates' weight rows. -/
theorem stage_candW :
    after hostOps0_5 W (Proc.devRef .tc main_v34) = guardedRows256 (W (Proc.devRef .tc main_arg1)) (W (Proc.devRef .tc main_arg5)) := by
  simp only [hostOps0_5]
  after_results <;> rfl

set_option maxHeartbeats 4000000 in
/-- The candidates' biases. -/
theorem stage_candB :
    after hostOps0_6 W (Proc.devRef .tc main_v35) = guardedEntries256 (W (Proc.devRef .tc main_arg2)) (W (Proc.devRef .tc main_arg5)) := by
  simp only [hostOps0_6]
  after_results <;> rfl

/-- The weights the region stages: the candidates' weight rows transposed, then narrowed. -/
theorem stage_weights :
    after hostOps0_7 W (Proc.devRef .tc main_v53)
      = truncf .bf16 (transpose S256x256 [1, 0] (W (Proc.devRef .tc main_v34)) transposes_S256x256_S256x256_1_0) bitsLt_bf16_f32 := by
  simp only [hostOps0_7]
  after_results <;> rfl

/-- The bias row the region stages: candidate bias less candidate log-prior, as a `[1, 256]` row. -/
theorem stage_bias :
    after hostOps0_7 W (Proc.devRef .tc main_v54)
      = shapeCast _ (subf (W (Proc.devRef .tc main_v35)) (prior256 (W (Proc.devRef .tc main_arg5)))) shapeCasts_S256_S1x256 := by
  simp only [hostOps0_7]
  after_results <;> rfl

end Cert.KernelIdeal.NceHost

end
-- ==== Proof.KernelHost.lean ====
import proofs.«421180_j90615220011778_2_alg».proof.Proof.Gen.KernelIdeal.Frame
import proofs.«421180_j90615220011778_2_alg».proof.Proof.HostStages
import Idealize.ShloMosaic.Lib.StableHlo.Run

/-!
# What nine host buffers hold when the region is entered

The contents at the region's entry are the eight stretches run in order from the launch contents. Run in order means
stretch by stretch (the fold of a concatenation is the fold of the second part after the first), a stretch leaves every
buffer it does not write, and every buffer here is written by exactly one stretch, from buffers written earlier or
from the arguments, which nothing writes. So each buffer holds its own stretch's operations of what the buffers that
stretch reads hold at the region's entry.
-/

set_option maxRecDepth 16384

noncomputable section

namespace Cert.KernelIdeal.NceHost

open Cert.KernelIdeal Cert.KernelIdeal.Gen
open Idealize.ShloMosaic Idealize.ShloMosaic.TcCoe Idealize.SL.Sem Idealize.ShloMosaic.StableHlo

variable {F : FTy → Type} [FloatOps F]

/-- Operations run in order from `W`: a concatenation is its second part run after its first. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih _

/-- Closes `after ops W b = W b` for a literal stretch `ops` none of whose operations writes the literal buffer `b`. -/
macro "stretch_keeps" : tactic => `(tactic| (
  refine StableHlo.after_of_forall_not_mem _ _ (List.forall_iff_forall_mem.mp ?_)
  simp only [hostOps0_1, hostOps0_2, hostOps0_3, hostOps0_4, hostOps0_5, hostOps0_6, hostOps0_7, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

section Keeps
variable (W : Valuation τ sig (Elt F))

/-- Stretch 1 leaves these buffers as it found them: it writes none of them. -/
theorem keep1 (b : Ref sig .tc) (hb : b ∈ [main_arg0, main_arg3, main_v0]) :
    after hostOps0_1 W (Proc.devRef .tc b) = W (Proc.devRef .tc b) := by
  simp only [List.mem_cons, List.mem_nil_iff, or_false] at hb
  rcases hb with rfl | rfl | rfl <;> stretch_keeps

/-- Stretch 2 leaves these buffers as it found them: it writes none of them. -/
theorem keep2 (b : Ref sig .tc) (hb : b ∈ [main_arg0, main_arg3, main_v0, main_arg1, main_v1]) :
    after hostOps0_2 W (Proc.devRef .tc b) = W (Proc.devRef .tc b) := by
  simp only [List.mem_cons, List.mem_nil_iff, or_false] at hb
  rcases hb with rfl | rfl | rfl | rfl | rfl <;> stretch_keeps

/-- Stretch 3 leaves these buffers as it found them: it writes none of them. -/
theorem keep3 (b : Ref sig .tc) (hb : b ∈ [main_arg0, main_arg3, main_v0, main_arg1, main_v1, main_arg2, main_v2]) :
    after hostOps0_3 W (Proc.devRef .tc b) = W (Proc.devRef .tc b) := by
  simp only [List.mem_cons, List.mem_nil_iff, or_false] at hb
  rcases hb with rfl | rfl | rfl | rfl | rfl | rfl | rfl <;> stretch_keeps

/-- Stretch 4 leaves these buffers as it found them: it writes none of them. -/
theorem keep4 (b : Ref sig .tc) (hb : b ∈ [main_arg0, main_arg3, main_v0, main_arg1, main_v1, main_arg2, main_v2, main_v3]) :
    after hostOps0_4 W (Proc.devRef .tc b) = W (Proc.devRef .tc b) := by
  simp only [List.mem_cons, List.mem_nil_iff, or_false] at hb
  rcases hb with rfl | rfl | rfl | rfl | rfl | rfl | rfl | rfl <;> stretch_keeps

/-- Stretch 5 leaves these buffers as it found them: it writes none of them. -/
theorem keep5 (b : Ref sig .tc) (hb : b ∈ [main_arg0, main_arg3, main_v0, main_arg1, main_v1, main_arg2, main_v2, main_v3, main_arg5, main_v33]) :
    after hostOps0_5 W (Proc.devRef .tc b) = W (Proc.devRef .tc b) := by
  simp only [List.mem_cons, List.mem_nil_iff, or_false] at hb
  rcases hb with rfl | rfl | rfl | rfl | rfl | rfl | rfl | rfl | rfl | rfl <;> stretch_keeps

/-- Stretch 6 leaves these buffers as it found them: it writes none of them. -/
theorem keep6 (b : Ref sig .tc) (hb : b ∈ [main_arg0, main_arg3, main_v0, main_arg1, main_v1, main_arg2, main_v2, main_v3, main_arg5, main_v33, main_v34]) :
    after hostOps0_6 W (Proc.devRef .tc b) = W (Proc.devRef .tc b) := by
  simp only [List.mem_cons, List.mem_nil_iff, or_false] at hb
  rcases hb with rfl | rfl | rfl | rfl | rfl | rfl | rfl | rfl | rfl | rfl | rfl <;> stretch_keeps

/-- Stretch 7 leaves these buffers as it found them: it writes none of them. -/
theorem keep7 (b : Ref sig .tc) (hb : b ∈ [main_arg0, main_arg3, main_v0, main_arg1, main_v1, main_arg2, main_v2, main_v3, main_arg5, main_v33, main_v34, main_v35]) :
    after hostOps0_7 W (Proc.devRef .tc b) = W (Proc.devRef .tc b) := by
  simp only [List.mem_cons, List.mem_nil_iff, or_false] at hb
  rcases hb with rfl | rfl | rfl | rfl | rfl | rfl | rfl | rfl | rfl | rfl | rfl | rfl <;> stretch_keeps

end Keeps

variable (m : (ℓ : Loc nD τ sig) → Buf (Elt F) ℓ) (c : Dev nD)

/-- The buffers' contents when stretch `k` is entered: the launch contents run through the stretches before it. -/
def P1 : Valuation τ sig (Elt F) := after hostOps0 (fun b => m (c, b))
def P2 : Valuation τ sig (Elt F) := after hostOps0_1 (P1 m c)
def P3 : Valuation τ sig (Elt F) := after hostOps0_2 (P2 m c)
def P4 : Valuation τ sig (Elt F) := after hostOps0_3 (P3 m c)
def P5 : Valuation τ sig (Elt F) := after hostOps0_4 (P4 m c)
def P6 : Valuation τ sig (Elt F) := after hostOps0_5 (P5 m c)
def P7 : Valuation τ sig (Elt F) := after hostOps0_6 (P6 m c)

/-- The contents at the region's entry are the last stretch run from the contents before it. -/
theorem V0_eq : V0 m c = after hostOps0_7 (P7 m c) := by
  unfold P7 P6 P5 P4 P3 P2 P1
  show after (List.flatten [hostOps0, hostOps0_1, hostOps0_2, hostOps0_3, hostOps0_4, hostOps0_5, hostOps0_6, hostOps0_7]) _ = _
  simp only [List.flatten_cons, List.flatten_nil, List.append_nil, after_append]

/-- A buffer stretch 7 does not write holds, when stretch 7 is entered, what it holds when the region is entered. -/
theorem prev7 (x : Ref sig .tc) (hx : x ∈ [main_arg0, main_arg3, main_v0, main_arg1, main_v1, main_arg2, main_v2, main_v3, main_arg5, main_v33, main_v34, main_v35]) :
    P7 m c (Proc.devRef .tc x) = V0 m c (Proc.devRef .tc x) := by
  rw [V0_eq, keep7 _ x hx]

/-- The same for stretch 6. -/
theorem prev6 (x : Ref sig .tc) (hx : x ∈ [main_arg0, main_arg3, main_v0, main_arg1, main_v1, main_arg2, main_v2, main_v3, main_arg5, main_v33, main_v34]) :
    P6 m c (Proc.devRef .tc x) = V0 m c (Proc.devRef .tc x) := by
  have hx' : x ∈ [main_arg0, main_arg3, main_v0, main_arg1, main_v1, main_arg2, main_v2, main_v3, main_arg5, main_v33, main_v34, main_v35] := by
    simp only [List.mem_cons, List.mem_nil_iff, or_false] at hx ⊢
    rcases hx with rfl | rfl | rfl | rfl | rfl | rfl | rfl | rfl | rfl | rfl | rfl <;> simp
  rw [← prev7 m c x hx', P7, keep6 _ x hx]

/-- The same for stretch 5. -/
theorem prev5 (x : Ref sig .tc) (hx : x ∈ [main_arg0, main_arg3, main_v0, main_arg1, main_v1, main_arg2, main_v2, main_v3, main_arg5, main_v33]) :
    P5 m c (Proc.devRef .tc x) = V0 m c (Proc.devRef .tc x) := by
  have hx' : x ∈ [main_arg0, main_arg3, main_v0, main_arg1, main_v1, main_arg2, main_v2, main_v3, main_arg5, main_v33, main_v34] := by
    simp only [List.mem_cons, List.mem_nil_iff, or_false] at hx ⊢
    rcases hx with rfl | rfl | rfl | rfl | rfl | rfl | rfl | rfl | rfl | rfl <;> simp
  rw [← prev6 m c x hx', P6, keep5 _ x hx]

/-- The same for stretch 4. -/
theorem prev4 (x : Ref sig .tc) (hx : x ∈ [main_arg0, main_arg3, main_v0, main_arg1, main_v1, main_arg2, main_v2, main_v3]) :
    P4 m c (Proc.devRef .tc x) = V0 m c (Proc.devRef .tc x) := by
  have hx' : x ∈ [main_arg0, main_arg3, main_v0, main_arg1, main_v1, main_arg2, main_v2, main_v3, main_arg5, main_v33] := by
    simp only [List.mem_cons, List.mem_nil_iff, or_false] at hx ⊢
    rcases hx with rfl | rfl | rfl | rfl | rfl | rfl | rfl | rfl <;> simp
  rw [← prev5 m c x hx', P5, keep4 _ x hx]

/-- The same for stretch 3. -/
theorem prev3 (x : Ref sig .tc) (hx : x ∈ [main_arg0, main_arg3, main_v0, main_arg1, main_v1, main_arg2, main_v2]) :
    P3 m c (Proc.devRef .tc x) = V0 m c (Proc.devRef .tc x) := by
  have hx' : x ∈ [main_arg0, main_arg3, main_v0, main_arg1, main_v1, main_arg2, main_v2, main_v3] := by
    simp only [List.mem_cons, List.mem_nil_iff, or_false] at hx ⊢
    rcases hx with rfl | rfl | rfl | rfl | rfl | rfl | rfl <;> simp
  rw [← prev4 m c x hx', P4, keep3 _ x hx]

/-- The same for stretch 2. -/
theorem prev2 (x : Ref sig .tc) (hx : x ∈ [main_arg0, main_arg3, main_v0, main_arg1, main_v1]) :
    P2 m c (Proc.devRef .tc x) = V0 m c (Proc.devRef .tc x) := by
  have hx' : x ∈ [main_arg0, main_arg3, main_v0, main_arg1, main_v1, main_arg2, main_v2] := by
    simp only [List.mem_cons, List.mem_nil_iff, or_false] at hx ⊢
    rcases hx with rfl | rfl | rfl | rfl | rfl <;> simp
  rw [← prev3 m c x hx', P3, keep2 _ x hx]

/-- The same for stretch 1. -/
theorem prev1 (x : Ref sig .tc) (hx : x ∈ [main_arg0, main_arg3, main_v0]) :
    P1 m c (Proc.devRef .tc x) = V0 m c (Proc.devRef .tc x) := by
  have hx' : x ∈ [main_arg0, main_arg3, main_v0, main_arg1, main_v1] := by
    simp only [List.mem_cons, List.mem_nil_iff, or_false] at hx ⊢
    rcases hx with rfl | rfl | rfl <;> simp
  rw [← prev2 m c x hx', P2, keep1 _ x hx]

/-- An argument holds at the region's entry what it was launched with (the generated fact, at the valuation). -/
theorem arg0_at : V0 m c (Proc.devRef .tc main_arg0) = m ((c.tc : Thread nD τ).loc main_arg0) := V_main_arg0 m c
theorem arg1_at : V0 m c (Proc.devRef .tc main_arg1) = m ((c.tc : Thread nD τ).loc main_arg1) := V_main_arg1 m c
theorem arg2_at : V0 m c (Proc.devRef .tc main_arg2) = m ((c.tc : Thread nD τ).loc main_arg2) := V_main_arg2 m c
theorem arg3_at : V0 m c (Proc.devRef .tc main_arg3) = m ((c.tc : Thread nD τ).loc main_arg3) := V_main_arg3 m c
theorem arg5_at : V0 m c (Proc.devRef .tc main_arg5) = m ((c.tc : Thread nD τ).loc main_arg5) := V_main_arg5 m c

/-- The labels as a vector: the `[16384, 1]` input reshaped. -/
theorem labels_read :
    V m c main_v0 = shapeCast _ (m ((c.tc : Thread nD τ).loc main_arg4)) shapeCasts_S16384x1_S16384 := by
  show V0 m c (Proc.devRef .tc main_v0) = _
  rw [← prev1 m c main_v0 (by simp), P1, stage_labels]

/-- The embedded batch: the guarded lookup of the inputs' rows in the embedding table. -/
theorem emb_read :
    V m c main_v1 = guardedRows16384 (m ((c.tc : Thread nD τ).loc main_arg0)) (m ((c.tc : Thread nD τ).loc main_arg3)) := by
  show V0 m c (Proc.devRef .tc main_v1) = _
  rw [← prev2 m c main_v1 (by simp), P2, stage_emb, prev1 m c main_arg0 (by simp), prev1 m c main_arg3 (by simp), arg0_at, arg3_at]

/-- The labels' weight rows. -/
theorem trueW_read :
    V m c main_v2 = guardedRows16384 (m ((c.tc : Thread nD τ).loc main_arg1)) (V m c main_v0) := by
  show V0 m c (Proc.devRef .tc main_v2) = _
  rw [← prev3 m c main_v2 (by simp), P3, stage_trueW, prev2 m c main_arg1 (by simp), prev2 m c main_v0 (by simp), arg1_at]

/-- The labels' biases. -/
theorem trueB_read :
    V m c main_v3 = guardedEntries16384 (m ((c.tc : Thread nD τ).loc main_arg2)) (V m c main_v0) := by
  show V0 m c (Proc.devRef .tc main_v3) = _
  rw [← prev4 m c main_v3 (by simp), P4, stage_trueB, prev3 m c main_arg2 (by simp), prev3 m c main_v0 (by simp), arg2_at]

/-- The total of the true-logit terms: the sum over the examples of the shared per-example term. -/
theorem trueTotal_read :
    V m c main_v33 = Host.reduceAdd (trueTerms (V m c main_v1) (V m c main_v2) (V m c main_v3) (V m c main_v0))
      (constant S_ .f32 0x00000000#32) reducesTo_S16384_S_d0 h_S_ := by
  show V0 m c (Proc.devRef .tc main_v33) = _
  rw [← prev5 m c main_v33 (by simp), P5, stage_trueTotal, prev4 m c main_v1 (by simp), prev4 m c main_v2 (by simp),
    prev4 m c main_v3 (by simp), prev4 m c main_v0 (by simp)]

/-- The candidates' weight rows. -/
theorem candW_read :
    V m c main_v34 = guardedRows256 (m ((c.tc : Thread nD τ).loc main_arg1)) (m ((c.tc : Thread nD τ).loc main_arg5)) := by
  show V0 m c (Proc.devRef .tc main_v34) = _
  rw [← prev6 m c main_v34 (by simp), P6, stage_candW, prev5 m c main_arg1 (by simp), prev5 m c main_arg5 (by simp), arg1_at, arg5_at]

/-- The candidates' biases. -/
theorem candB_read :
    V m c main_v35 = guardedEntries256 (m ((c.tc : Thread nD τ).loc main_arg2)) (m ((c.tc : Thread nD τ).loc main_arg5)) := by
  show V0 m c (Proc.devRef .tc main_v35) = _
  rw [← prev7 m c main_v35 (by simp), P7, stage_candB, prev6 m c main_arg2 (by simp), prev6 m c main_arg5 (by simp), arg2_at, arg5_at]

/-- The weights the region stages: the candidates' weight rows transposed, then narrowed. -/
theorem weights_read :
    V m c main_v53 = truncf .bf16 (transpose S256x256 [1, 0] (V m c main_v34) transposes_S256x256_S256x256_1_0) bitsLt_bf16_f32 := by
  show V0 m c (Proc.devRef .tc main_v53) = _
  rw [V0_eq, stage_weights, prev7 m c main_v34 (by simp)]

/-- The bias row the region stages: candidate bias less candidate log-prior, as a `[1, 256]` row. -/
theorem bias_read :
    V m c main_v54 = shapeCast _ (subf (V m c main_v35) (prior256 (m ((c.tc : Thread nD τ).loc main_arg5)))) shapeCasts_S256_S1x256 := by
  show V0 m c (Proc.devRef .tc main_v54) = _
  rw [V0_eq, stage_bias, prev7 m c main_v35 (by simp), prev7 m c main_arg5 (by simp), arg5_at]

end Cert.KernelIdeal.NceHost

end
-- ==== Proof.TakeInRange.lean ====
import Idealize.ShloMosaic.PureOps
import Idealize.ShloMosaic.Lib.ValueIdx
import Idealize.ShloMosaic.Lib.ReduceAll

/-!
# A guarded table lookup whose indices are in range is the plain lookup

A lookup `table[idx]` with a fill value first wraps a negative index (`idx + 100000`), then tests the wrapped
index against `[0, 99999]`, looks the row up, and keeps the row where the test passed and a fill value where it
did not. When every index already lies in `[0, 100000)` the wrap changes nothing, the test passes everywhere, and
the result is the looked-up array itself — whatever that array is: only the mask is examined here.
-/

open Idealize.ShloMosaic

namespace Cert.Nce

/-- A word in `[0, 100000)` (signed) is not wrapped, and lies in `[0, 99999]`. -/
theorem wrap_in_range (w : BitVec 32) (h0 : IntOp.cmpi .sge w 0#32 = 1#1) (hN : IntOp.cmpi .slt w 100000#32 = 1#1) :
    Scalar.select (IntOp.cmpi .slt w 0#32) (IntOp.addi w 100000#32) w = w
      ∧ IntOp.cmpi .sle w 99999#32 = 1#1 := by
  have e0 : (0#32 : BitVec 32).toInt = 0 := by decide
  have e1 : (100000#32 : BitVec 32).toInt = 100000 := by decide
  have e2 : (99999#32 : BitVec 32).toInt = 99999 := by decide
  -- the two hypotheses, read as signed comparisons of integers
  have a0 : (0 : Int) ≤ w.toInt := by
    have hb : (0#32 : BitVec 32).sle w = true := by
      cases hb : (0#32 : BitVec 32).sle w
      · simp [IntOp.cmpi, hb] at h0
      · rfl
    rw [BitVec.sle_iff_toInt_le, e0] at hb
    exact hb
  have a1 : w.toInt < 100000 := by
    have hb : w.slt 100000#32 = true := by
      cases hb : w.slt 100000#32
      · simp [IntOp.cmpi, hb] at hN
      · rfl
    rw [BitVec.slt_iff_toInt_lt, e1] at hb
    exact hb
  -- a word that is nonnegative is not negative
  have b0 : w.slt 0#32 = false := by
    cases hb : w.slt 0#32
    · rfl
    · rw [BitVec.slt_iff_toInt_lt, e0] at hb
      omega
  have b1 : w.sle 99999#32 = true := by
    rw [BitVec.sle_iff_toInt_le, e2]
    omega
  constructor
  · show Scalar.select (BitVec.ofBool (w.slt 0#32)) _ _ = w
    rw [b0]
    exact if_neg (by decide)
  · show BitVec.ofBool (w.sle 99999#32) = 1#1
    rw [b1]
    rfl

/-- A reduction by `and` from `1` of an array of ones is one everywhere. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  show List.foldl _ 1#1 _ = 1#1
  generalize List.filter _ _ = l
  -- a left fold by `and` from 1 over ones stays 1
  induction l with
  | nil => rfl
  | cons a l ih =>
    rw [List.foldl_cons, hx a]
    exact ih

/-- A selection under a mask of ones is its first branch. -/
theorem select_ones {s : Shape} {α : Type} (c : IVec s 1) (a b : s.Idx → α) (hc : ∀ i, c i = 1#1) : select c a b = a := by
  funext i
  rw [ValueIdx.select_apply, hc i, ValueIdx.select_one]

/-- Every element of a looked-up array is an element of the table. -/
theorem gather_mem {s si t : Shape} {α : Type} {w : Nat} (d : GatherDims s si t) (x : s.Idx → α) (idx : IVec si w) (j : t.Idx) :
    ∃ i, Host.gather d x idx j = x i := ⟨_, rfl⟩

/-- ROWS of a two-axis table: with every index in `[0, 100000)`, the guarded lookup of `n` rows of `C` columns
    is the looked-up array `G I` at the wrapped index column `I`, whatever `G` is. -/
theorem take_rows_eq {α : Type} {n C : Nat}
    (hb0 : (⟨0, ![]⟩ : Shape).BroadcastsInDim ⟨1, ![n]⟩ (![] : Fin 0 → Fin 1))
    (hcol : (⟨1, ![n]⟩ : Shape).BroadcastsInDim ⟨2, ![n, 1]⟩ (![0] : Fin 1 → Fin 2))
    (hb0c : (⟨0, ![]⟩ : Shape).BroadcastsInDim ⟨2, ![n, 1]⟩ (![] : Fin 0 → Fin 2))
    (hb11 : (⟨1, ![1]⟩ : Shape).BroadcastsInDim ⟨2, ![1, 1]⟩ (![1] : Fin 1 → Fin 2))
    (hb11c : (⟨2, ![1, 1]⟩ : Shape).BroadcastsInDim ⟨2, ![n, 1]⟩ (![0, 1] : Fin 2 → Fin 2))
    (hred : (⟨2, ![n, 1]⟩ : Shape).ReducesTo [1] ⟨1, ![n]⟩)
    (hu : 0 < (⟨0, ![]⟩ : Shape).numel)
    (hmask : (⟨1, ![n]⟩ : Shape).BroadcastsInDim ⟨2, ![n, C]⟩ (![0] : Fin 1 → Fin 2))
    (idx : IVec ⟨1, ![n]⟩ 32)
    (hidx : ∀ i, IntOp.cmpi .sge (idx i) 0#32 = 1#1 ∧ IntOp.cmpi .slt (idx i) 100000#32 = 1#1)
    (G : IVec ⟨2, ![n, 1]⟩ 32 → (⟨2, ![n, C]⟩ : Shape).Idx → α) (fill : (⟨2, ![n, C]⟩ : Shape).Idx → α) :
    select (broadcastInDim ⟨2, ![n, C]⟩ ![0] hmask
        (Host.reduce IntOp.andi
          (andi
            (cmpi .sge
              (broadcastInDim ⟨2, ![n, 1]⟩ ![0] hcol (select (cmpi .slt idx (broadcastInDim ⟨1, ![n]⟩ ![] hb0 (constantI ⟨0, ![]⟩ 32 0#32))) (addi idx (broadcastInDim ⟨1, ![n]⟩ ![] hb0 (constantI ⟨0, ![]⟩ 32 100000#32))) idx))
              (broadcastInDim ⟨2, ![n, 1]⟩ ![] hb0c (constantI ⟨0, ![]⟩ 32 0#32)))
            (cmpi .sle
              (broadcastInDim ⟨2, ![n, 1]⟩ ![0] hcol (select (cmpi .slt idx (broadcastInDim ⟨1, ![n]⟩ ![] hb0 (constantI ⟨0, ![]⟩ 32 0#32))) (addi idx (broadcastInDim ⟨1, ![n]⟩ ![] hb0 (constantI ⟨0, ![]⟩ 32 100000#32))) idx))
              (broadcastInDim ⟨2, ![n, 1]⟩ ![0, 1] hb11c (broadcastInDim ⟨2, ![1, 1]⟩ ![1] hb11 (constantI ⟨1, ![1]⟩ 32 99999#32)))))
          (constantI ⟨0, ![]⟩ 1 1#1) hred hu))
      (G (broadcastInDim ⟨2, ![n, 1]⟩ ![0] hcol (select (cmpi .slt idx (broadcastInDim ⟨1, ![n]⟩ ![] hb0 (constantI ⟨0, ![]⟩ 32 0#32))) (addi idx (broadcastInDim ⟨1, ![n]⟩ ![] hb0 (constantI ⟨0, ![]⟩ 32 100000#32))) idx)))
      fill
    = G (broadcastInDim ⟨2, ![n, 1]⟩ ![0] hcol (select (cmpi .slt idx (broadcastInDim ⟨1, ![n]⟩ ![] hb0 (constantI ⟨0, ![]⟩ 32 0#32))) (addi idx (broadcastInDim ⟨1, ![n]⟩ ![] hb0 (constantI ⟨0, ![]⟩ 32 100000#32))) idx)) := by
  -- at a word in range, the and of the two compares of the wrapped word is 1
  have key : ∀ w : BitVec 32, IntOp.cmpi .sge w 0#32 = 1#1 → IntOp.cmpi .slt w 100000#32 = 1#1 →
      IntOp.andi (IntOp.cmpi .sge (Scalar.select (IntOp.cmpi .slt w 0#32) (IntOp.addi w 100000#32) w) 0#32)
        (IntOp.cmpi .sle (Scalar.select (IntOp.cmpi .slt w 0#32) (IntOp.addi w 100000#32) w) 99999#32) = 1#1 := by
    intro w h0 hN
    obtain ⟨e, h99⟩ := wrap_in_range w h0 hN
    rw [e, h0, h99]
    decide
  apply select_ones
  intro i
  -- the broadcast mask reads the reduced column at some index
  show Host.reduce _ _ _ _ _ _ = 1#1
  apply reduce_andi_ones
  intro k
  -- the column's element at an index is the wrapped word of `idx` at some index
  exact key _ (hidx _).1 (hidx _).2

/-- ENTRIES of a one-axis table: the same for the guarded lookup of `n` entries (the mask is not broadcast). -/
theorem take_entries_eq {α : Type} {n : Nat}
    (hb0 : (⟨0, ![]⟩ : Shape).BroadcastsInDim ⟨1, ![n]⟩ (![] : Fin 0 → Fin 1))
    (hcol : (⟨1, ![n]⟩ : Shape).BroadcastsInDim ⟨2, ![n, 1]⟩ (![0] : Fin 1 → Fin 2))
    (hb0c : (⟨0, ![]⟩ : Shape).BroadcastsInDim ⟨2, ![n, 1]⟩ (![] : Fin 0 → Fin 2))
    (hb11 : (⟨1, ![1]⟩ : Shape).BroadcastsInDim ⟨2, ![1, 1]⟩ (![1] : Fin 1 → Fin 2))
    (hb11c : (⟨2, ![1, 1]⟩ : Shape).BroadcastsInDim ⟨2, ![n, 1]⟩ (![0, 1] : Fin 2 → Fin 2))
    (hred : (⟨2, ![n, 1]⟩ : Shape).ReducesTo [1] ⟨1, ![n]⟩)
    (hu : 0 < (⟨0, ![]⟩ : Shape).numel)
    (idx : IVec ⟨1, ![n]⟩ 32)
    (hidx : ∀ i, IntOp.cmpi .sge (idx i) 0#32 = 1#1 ∧ IntOp.cmpi .slt (idx i) 100000#32 = 1#1)
    (G : IVec ⟨2, ![n, 1]⟩ 32 → (⟨1, ![n]⟩ : Shape).Idx → α) (fill : (⟨1, ![n]⟩ : Shape).Idx → α) :
    select
        (Host.reduce IntOp.andi
          (andi
            (cmpi .sge
              (broadcastInDim ⟨2, ![n, 1]⟩ ![0] hcol (select (cmpi .slt idx (broadcastInDim ⟨1, ![n]⟩ ![] hb0 (constantI ⟨0, ![]⟩ 32 0#32))) (addi idx (broadcastInDim ⟨1, ![n]⟩ ![] hb0 (constantI ⟨0, ![]⟩ 32 100000#32))) idx))
              (broadcastInDim ⟨2, ![n, 1]⟩ ![] hb0c (constantI ⟨0, ![]⟩ 32 0#32)))
            (cmpi .sle
              (broadcastInDim ⟨2, ![n, 1]⟩ ![0] hcol (select (cmpi .slt idx (broadcastInDim ⟨1, ![n]⟩ ![] hb0 (constantI ⟨0, ![]⟩ 32 0#32))) (addi idx (broadcastInDim ⟨1, ![n]⟩ ![] hb0 (constantI ⟨0, ![]⟩ 32 100000#32))) idx))
              (broadcastInDim ⟨2, ![n, 1]⟩ ![0, 1] hb11c (broadcastInDim ⟨2, ![1, 1]⟩ ![1] hb11 (constantI ⟨1, ![1]⟩ 32 99999#32)))))
          (constantI ⟨0, ![]⟩ 1 1#1) hred hu)
      (G (broadcastInDim ⟨2, ![n, 1]⟩ ![0] hcol (select (cmpi .slt idx (broadcastInDim ⟨1, ![n]⟩ ![] hb0 (constantI ⟨0, ![]⟩ 32 0#32))) (addi idx (broadcastInDim ⟨1, ![n]⟩ ![] hb0 (constantI ⟨0, ![]⟩ 32 100000#32))) idx)))
      fill
    = G (broadcastInDim ⟨2, ![n, 1]⟩ ![0] hcol (select (cmpi .slt idx (broadcastInDim ⟨1, ![n]⟩ ![] hb0 (constantI ⟨0, ![]⟩ 32 0#32))) (addi idx (broadcastInDim ⟨1, ![n]⟩ ![] hb0 (constantI ⟨0, ![]⟩ 32 100000#32))) idx)) := by
  have key : ∀ w : BitVec 32, IntOp.cmpi .sge w 0#32 = 1#1 → IntOp.cmpi .slt w 100000#32 = 1#1 →
      IntOp.andi (IntOp.cmpi .sge (Scalar.select (IntOp.cmpi .slt w 0#32) (IntOp.addi w 100000#32) w) 0#32)
        (IntOp.cmpi .sle (Scalar.select (IntOp.cmpi .slt w 0#32) (IntOp.addi w 100000#32) w) 99999#32) = 1#1 := by
    intro w h0 hN
    obtain ⟨e, h99⟩ := wrap_in_range w h0 hN
    rw [e, h0, h99]
    decide
  apply select_ones
  intro i
  apply reduce_andi_ones
  intro k
  -- the column's element at an index is the wrapped word of `idx` at some index
  exact key _ (hidx _).1 (hidx _).2

end Cert.Nce
-- ==== Proof.IndexDomain.lean ====
import proofs.«421180_j90615220011778_2_alg».proof.Pre_finite_inputs
import proofs.«421180_j90615220011778_2_alg».proof.Proof.Gen.Pre_finite_inputs
import Idealize.ShloMosaic.Lib.ReduceAll
import Idealize.ShloMosaic.Lib.Affine

/-!
# The index ranges the precondition states

The precondition is a conjunction of six `all`s; the last three say that every entry of each integer input lies in
`[0, 100000)`, the range of the tables' first axis. Read back: each `all` that is one had a one at every element, and an
element is the `and` of the two signed comparisons of that entry.
-/

namespace Cert.Pre_finite_inputs.NceDomain

open Cert.Pre_finite_inputs Cert.Pre_finite_inputs.Gen
open Idealize.ShloMosaic

/-- The rank-0 shape has exactly one index: there is no axis to disagree on. -/
instance : Subsingleton S_.Idx := ⟨fun a b => funext fun d => d.elim0⟩

/-- Under the precondition every index of the three integer inputs is in `[0, 100000)`, signed. -/
theorem ranges {F : FTy → Type} [FloatOps F] (a0 a1 : FVec F S100000x256 .f32) (a2 : FVec F S100000 .f32)
    (a3 : IVec S16384 32) (a4 : IVec S16384x1 32) (a5 : IVec S256 32)
    (h : fn (F := F) a0 a1 a2 a3 a4 a5 = fun _ => 1#1) :
    (∀ i, IntOp.cmpi .sge (a3 i) 0#32 = 1#1 ∧ IntOp.cmpi .slt (a3 i) 100000#32 = 1#1)
      ∧ (∀ i, IntOp.cmpi .sge (a4 i) 0#32 = 1#1 ∧ IntOp.cmpi .slt (a4 i) 100000#32 = 1#1)
      ∧ (∀ i, IntOp.cmpi .sge (a5 i) 0#32 = 1#1 ∧ IntOp.cmpi .slt (a5 i) 100000#32 = 1#1) := by
  -- the scalar result at its one index is a left-nested `and` of the six `all`s
  have h0 := congrFun h (fun a => a.elim0)
  dsimp only [fn, fn_part1, fn_part2] at h0
  -- an `and` of one-bit words is one exactly when both are: peel off the three integer `all`s, outermost first
  obtain ⟨h01, h5⟩ := IntOp.andi_eq_one.1 h0
  obtain ⟨h02, h4⟩ := IntOp.andi_eq_one.1 h01
  obtain ⟨h03, h3⟩ := IntOp.andi_eq_one.1 h02
  clear h h0 h01 h02 h03
  -- an `all` that is one had a one at every element; an element is the `and` of the two comparisons of that entry
  -- against the broadcast scalar constants, and a broadcast scalar read at any index is the scalar
  refine ⟨fun i => ?_, fun i => ?_, fun i => ?_⟩
  · exact IntOp.andi_eq_one.1 (Host.reduce_andi_all _ _ _ _ _ h3 i)
  · exact IntOp.andi_eq_one.1 (Host.reduce_andi_all _ _ _ _ _ h4 i)
  · exact IntOp.andi_eq_one.1 (Host.reduce_andi_all _ _ _ _ _ h5 i)

end Cert.Pre_finite_inputs.NceDomain
-- ==== Proof.Lookups.lean ====
import proofs.«421180_j90615220011778_2_alg».proof.Defs
import proofs.«421180_j90615220011778_2_alg».proof.Proof.Gen.Pre_finite_inputs
import proofs.«421180_j90615220011778_2_alg».proof.Proof.Gen.ReferenceIdeal.Read
import proofs.«421180_j90615220011778_2_alg».proof.Proof.KernelHost
import proofs.«421180_j90615220011778_2_alg».proof.Proof.TakeInRange
import proofs.«421180_j90615220011778_2_alg».proof.Proof.IndexDomain

/-!
# With the indices in range, the kernel's lookups are the reference's

The kernel looks a row up with a fill value for an index out of range; the reference looks it up plainly. Under the
precondition every index lies in `[0, 100000)`, so the kernel's range test passes everywhere and each of its five
looked-up arrays is the reference's: the same table, the same wrapped index column.
-/

set_option maxRecDepth 16384

noncomputable section

namespace Cert.Proof.NceLookups

open Cert.KernelIdeal Cert.KernelIdeal.Gen Cert.KernelIdeal.NceHost
open Idealize.ShloMosaic Idealize.ShloMosaic.TcCoe Idealize.SL.Sem

variable (m : (ℓ : Loc nD τ sig) → Buf (Elt Ideal) ℓ)

/-- Every index of the three integer inputs lies in `[0, 100000)`, on every device. -/
def InRange : Prop := ∀ c : Dev nD,
  (∀ i, IntOp.cmpi .sge ((m ((c.tc : Thread nD τ).loc main_arg3)) i) 0#32 = 1#1 ∧ IntOp.cmpi .slt ((m ((c.tc : Thread nD τ).loc main_arg3)) i) 100000#32 = 1#1)
    ∧ (∀ i, IntOp.cmpi .sge ((m ((c.tc : Thread nD τ).loc main_arg4)) i) 0#32 = 1#1 ∧ IntOp.cmpi .slt ((m ((c.tc : Thread nD τ).loc main_arg4)) i) 100000#32 = 1#1)
    ∧ (∀ i, IntOp.cmpi .sge ((m ((c.tc : Thread nD τ).loc main_arg5)) i) 0#32 = 1#1 ∧ IntOp.cmpi .slt ((m ((c.tc : Thread nD τ).loc main_arg5)) i) 100000#32 = 1#1)

/-- The precondition says so. -/
theorem inRange_of_pre (h : Cert.Pre_KernelIdeal m) : InRange m := fun c =>
  Cert.Pre_finite_inputs.NceDomain.ranges _ _ _ _ _ _ (h c)

variable {m}

/-- The labels as a vector are the entries of the `[16384, 1]` input, so they are in range too. -/
theorem labels_inRange (h : InRange m) (c : Dev nD) (i : S16384.Idx) :
    IntOp.cmpi .sge ((shapeCast S16384 (m ((c.tc : Thread nD τ).loc main_arg4)) shapeCasts_S16384x1_S16384) i) 0#32 = 1#1
      ∧ IntOp.cmpi .slt ((shapeCast S16384 (m ((c.tc : Thread nD τ).loc main_arg4)) shapeCasts_S16384x1_S16384) i) 100000#32 = 1#1 :=
  (h c).2.1 _

/-- The embedded batch is the reference's. -/
theorem emb_eq (h : InRange m) (c : Dev nD) :
    V m c main_v1 = Cert.ReferenceIdeal.Read.val_main_v6 (F := Ideal) (m ((c.tc : Thread nD τ).loc main_arg0)) (m ((c.tc : Thread nD τ).loc main_arg3)) := by
  rw [emb_read]
  exact Cert.Nce.take_rows_eq (n := 16384) (C := 256) _ _ _ _ _ _ _ _ (m ((c.tc : Thread nD τ).loc main_arg3)) (h c).1
    (fun I => Host.gather gather_S100000x256_S16384x1_S16384x256_1_0_n_n_0_1_1256 (m ((c.tc : Thread nD τ).loc main_arg0)) I) _

/-- The labels' weight rows are the reference's. -/
theorem trueW_eq (h : InRange m) (c : Dev nD) :
    V m c main_v2 = Cert.ReferenceIdeal.Read.val_main_v14 (F := Ideal) (m ((c.tc : Thread nD τ).loc main_arg1)) (m ((c.tc : Thread nD τ).loc main_arg4)) := by
  rw [trueW_read, labels_read]
  exact Cert.Nce.take_rows_eq (n := 16384) (C := 256) _ _ _ _ _ _ _ _ _ (labels_inRange h c)
    (fun I => Host.gather gather_S100000x256_S16384x1_S16384x256_1_0_n_n_0_1_1256 (m ((c.tc : Thread nD τ).loc main_arg1)) I) _

/-- The labels' biases are the reference's. -/
theorem trueB_eq (h : InRange m) (c : Dev nD) :
    V m c main_v3 = Cert.ReferenceIdeal.Read.val_main_v21 (F := Ideal) (m ((c.tc : Thread nD τ).loc main_arg2)) (m ((c.tc : Thread nD τ).loc main_arg4)) := by
  rw [trueB_read, labels_read]
  exact Cert.Nce.take_entries_eq (n := 16384) _ _ _ _ _ _ _ _ (labels_inRange h c)
    (fun I => Host.gather gather_S100000_S16384x1_S16384_n_0_n_n_0_1_1 (m ((c.tc : Thread nD τ).loc main_arg2)) I) _

/-- The candidates' weight rows are the reference's. -/
theorem candW_eq (h : InRange m) (c : Dev nD) :
    V m c main_v34 = Cert.ReferenceIdeal.Read.val_main_v47 (F := Ideal) (m ((c.tc : Thread nD τ).loc main_arg1)) (m ((c.tc : Thread nD τ).loc main_arg5)) := by
  rw [candW_read]
  exact Cert.Nce.take_rows_eq (n := 256) (C := 256) _ _ _ _ _ _ _ _ (m ((c.tc : Thread nD τ).loc main_arg5)) (h c).2.2
    (fun I => Host.gather gather_S100000x256_S256x1_S256x256_1_0_n_n_0_1_1256 (m ((c.tc : Thread nD τ).loc main_arg1)) I) _

/-- The candidates' biases are the reference's. -/
theorem candB_eq (h : InRange m) (c : Dev nD) :
    V m c main_v35 = Cert.ReferenceIdeal.Read.val_main_v54 (F := Ideal) (m ((c.tc : Thread nD τ).loc main_arg2)) (m ((c.tc : Thread nD τ).loc main_arg5)) := by
  rw [candB_read]
  exact Cert.Nce.take_entries_eq (n := 256) _ _ _ _ _ _ _ (m ((c.tc : Thread nD τ).loc main_arg5)) (h c).2.2
    (fun I => Host.gather gather_S100000_S256x1_S256_n_0_n_n_0_1_1 (m ((c.tc : Thread nD τ).loc main_arg2)) I) _

end Cert.Proof.NceLookups

end
-- ==== Proof.NceSums.lean ====
import Idealize.ShloMosaic.PureOps.Ideal
import Idealize.ShloMosaic.PureOps.Ideal.Laws
import Mathlib.Data.EReal.Basic
import Mathlib.Data.EReal.Operations
import Mathlib.Algebra.BigOperators.Group.Finset.Basic
import Mathlib.Algebra.BigOperators.Fin

/-!
# The algebra of the sampled-softmax cost on the extended reals

A logit is `x + b - p`: a dot product `x`, a bias `b` and a log-prior `p`. One program subtracts the prior from the
bias first, the other from the sum; the two agree on all extended reals, since a difference is a sum with the opposite.
The cross-entropy of a logit against the label `0` carries a term `l * 0`, which is `0` on every extended real.
The cost sums a per-example term and a per-(example, candidate) term; one program sums the second over tiles of
4096 examples, the other example by example: addition on the extended reals is commutative and associative, so the
two sums agree.
-/

open Idealize.ShloMosaic

namespace Cert.Nce

/-- Example `r` of tile `t`, of 4 tiles of 4096 examples. -/
def tileRow (t : Fin 4) (r : Fin 4096) : Fin 16384 := ⟨4096 * t.val + r.val, by omega⟩

/-- The cross-entropy of a logit `l` against the label `0`: `max l 0 + log (1 + e^(-|l|))`, the absolute value spelt
    `max l (-l)` and the negation `0 - ·`. -/
noncomputable def negTerm (l : EReal) : EReal := max l 0 + Ideal.log1p (Ideal.exp (0 - max l (-l)))

/-- The prior may be subtracted from the bias or from the sum of dot product and bias: on the extended reals a
    difference is the sum with the opposite, and addition is associative (at the infinities too). -/
theorem logit_eq (x b p : EReal) : x + (b - p) = (x + b) - p := by
  rw [sub_eq_add_neg, sub_eq_add_neg, add_assoc]

/-- The cross-entropy against label `0`: the product with the label vanishes, and `0 - y` is `-y`. -/
theorem negTerm_eq (l : EReal) :
    max l 0 + Ideal.log1p (Ideal.exp (0 - max l (-l)))
      = (max l 0 - l * 0) + Ideal.log1p (Ideal.exp (-(max l (-l)))) := by
  rw [mul_zero, sub_zero, zero_sub]

/-- The total over examples of (own term + row sum) is the total of the own terms plus the tile-by-tile total. -/
theorem sum_tiles (T : Fin 16384 → EReal) (x : Fin 16384 → Fin 256 → EReal) :
    (0 + ∑ b, T b) + (0 + ∑ t : Fin 4, ∑ r : Fin 4096, ∑ s : Fin 256, x (tileRow t r) s)
      = 0 + ∑ b, (T b + (0 + ∑ s, x b s)) := by
  -- the pairs (tile, example within the tile) number the 16384 examples: `tileRow` is a bijection, with inverse
  -- quotient and remainder by 4096
  obtain ⟨e, he⟩ : ∃ e : Fin 4 × Fin 4096 ≃ Fin 16384, ∀ p, e p = tileRow p.1 p.2 :=
    ⟨{ toFun := fun p => tileRow p.1 p.2
       invFun := fun b => (⟨b.val / 4096, by omega⟩, ⟨b.val % 4096, by omega⟩)
       left_inv := by
         rintro ⟨t, r⟩
         apply Prod.ext
         · apply Fin.ext
           show (4096 * t.val + r.val) / 4096 = t.val
           omega
         · apply Fin.ext
           show (4096 * t.val + r.val) % 4096 = r.val
           omega
       right_inv := by
         intro b
         apply Fin.ext
         show 4096 * (b.val / 4096) + b.val % 4096 = b.val
         omega }, fun _ => rfl⟩
  -- a double sum over tiles and examples of a tile is a sum over pairs, and the pairs re-index the examples
  have h : ∑ t : Fin 4, ∑ r : Fin 4096, ∑ s : Fin 256, x (tileRow t r) s = ∑ b, ∑ s, x b s := by
    rw [← Fintype.sum_prod_type' (fun (t : Fin 4) (r : Fin 4096) => ∑ s : Fin 256, x (tileRow t r) s)]
    exact Fintype.sum_equiv e _ _ (fun p => by rw [he p])
  simp only [zero_add]
  rw [h, Finset.sum_add_distrib]

end Cert.Nce
-- ==== Proof.TileSum.lean ====
import proofs.«421180_j90615220011778_2_alg».proof.Proof.Gen.KernelIdeal.Skeleton
import proofs.«421180_j90615220011778_2_alg».proof.Proof.NceSums
import Idealize.ShloMosaic.Lib.Pipeline.Value
import Idealize.ShloMosaic.Lib.ValueIdx
import Idealize.ShloMosaic.Lib.ValueLayout
import Idealize.ShloMosaic.PureOps.Ideal.Laws

/-!
# One tile's total as a double sum

The body multiplies a `[4096, 256]` block of embedded rows by the `[256, 256]` transposed candidate weights, adds the
bias row to every row, takes the label-0 cross-entropy of each of the `4096 × 256` logits and sums them all into one
number. At the exact values a change of float format is the identity, the matrix product into a zero accumulator is
the sum over the contracted axis, and the sum over both axes at once is the double sum.
-/

set_option maxRecDepth 16384

noncomputable section

namespace Cert.KernelIdeal.NceTile

open Cert.KernelIdeal Cert.KernelIdeal.Gen
open Idealize.ShloMosaic

/-- The logit of row `r` against candidate `s`: the row's dot product with the candidate's weight column, plus the bias. -/
def tileLogit (x0 : FVec Ideal S4096x256 .f32) (x1 : FVec Ideal S256x256 .bf16) (x2 : FVec Ideal S1x256 .f32)
    (r : Fin 4096) (s : Fin 256) : EReal :=
  (∑ k : Fin 256, x0 (ValueIdx.ix2 r k) * x1 (ValueIdx.ix2 k s)) + x2 (ValueIdx.ix2 (0 : Fin 1) s)

/-! ### The index set of a `[1, a, b]` array -/

/-- The indices of a `[1, a, b]` array are the pairs of its last two coordinates: the first coordinate is `0`. -/
def idxEquiv1ab {a b : Nat} : (⟨3, ![1, a, b]⟩ : Shape).Idx ≃ Fin a × Fin b where
  toFun i := (i 1, i 2)
  invFun p := ValueIdx.ix3 (0 : Fin 1) p.1 p.2
  left_inv i := by
    funext d
    match d with
    | ⟨0, _⟩ =>
      have h : (i 0).val < 1 := (i 0).isLt
      exact Fin.ext (by show 0 = (i 0).val; omega)
    | ⟨1, _⟩ => rfl
    | ⟨2, _⟩ => rfl
  right_inv _ := rfl

/-- So a sum over them is the double sum over those two coordinates. -/
theorem sum_idx1ab {M : Type*} [AddCommMonoid M] {a b : Nat} (f : (⟨3, ![1, a, b]⟩ : Shape).Idx → M) :
    ∑ i, f i = ∑ r : Fin a, ∑ s : Fin b, f (ValueIdx.ix3 (0 : Fin 1) r s) := by
  rw [← Equiv.sum_comp (idxEquiv1ab (a := a) (b := b)).symm f, Fintype.sum_prod_type]
  rfl

/-! ### The matrix product's operand indices -/

theorem lhs_axis0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_axis1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_axis0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_axis1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The matrix product into the zero accumulator, at row `r` and column `s`: the sum over the contracted axis. -/
theorem matmul_tile_apply (lhs : FVec Ideal S4096x256 .bf16) (rhs : FVec Ideal S256x256 .bf16) (r : Fin 4096) (s : Fin 256) :
    matmul dot_S4096x256_S256x256_S4096x256_1_0_0_1_n_n none lhs rhs (constant (F := Ideal) S4096x256 .f32 0x00000000#32) (ValueIdx.ix2 r s)
      = ∑ k : Fin 256, lhs (ValueIdx.ix2 r k) * rhs (ValueIdx.ix2 k s) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ValueIdx.ix2 r s) ((ValueIdx.contrEquiv1 dot_S4096x256_S256x256_S4096x256_1_0_0_1_n_n 256 rfl rfl).symm k) = ValueIdx.ix2 r k := funext fun a => Fin.ext (by
    match a with
    | ⟨0, _⟩ => exact lhs_axis0 _ _
    | ⟨1, _⟩ => exact (lhs_axis1 _ _).trans hk)
  have er : dot_S4096x256_S256x256_S4096x256_1_0_0_1_n_n.rhsIdx (ValueIdx.ix2 r s) ((ValueIdx.contrEquiv1 dot_S4096x256_S256x256_S4096x256_1_0_0_1_n_n 256 rfl rfl).symm k) = ValueIdx.ix2 k s := funext fun a => Fin.ext (by
    match a with
    | ⟨0, _⟩ => exact (rhs_axis0 _ _).trans hk
    | ⟨1, _⟩ => exact rhs_axis1 _ _)
  rw [el, er]

/-! ### The body's vector at a row and a column -/

/-- The logits: the rows, unchanged by the change of format, times the weights, plus the bias row on every row. -/
theorem logit_apply (x0 : FVec Ideal S4096x256 .f32) (x1 : FVec Ideal S256x256 .bf16) (x2 : FVec Ideal S1x256 .f32)
    (r : Fin 4096) (s : Fin 256) :
    addf (matmul dot_S4096x256_S256x256_S4096x256_1_0_0_1_n_n none
            (truncf .bf16 (shapeCast S4096x256 x0 shapeCasts_S4096x256_S4096x256) bitsLt_bf16_f32)
            (shapeCast S256x256 x1 shapeCasts_S256x256_S256x256) (constant (F := Ideal) S4096x256 .f32 0x00000000#32))
         (broadcastTo S4096x256 (shapeCast S1x256 x2 shapeCasts_S1x256_S1x256) broadcasts_S1x256_S4096x256) (ValueIdx.ix2 r s)
      = tileLogit x0 x1 x2 r s := by
  rw [shapeCast_self, shapeCast_self, shapeCast_self]
  refine (ValueIdx.addf_apply _ _ _).trans ?_
  rw [matmul_tile_apply, ValueIdx.broadcastTo_1b_ab_apply]
  rfl

/-- The cross-entropy against label `0` of a vector of logits, element by element. -/
theorem ce_apply (l : FVec Ideal S4096x256 .f32) (i : S4096x256.Idx) :
    addf (maximumf l (broadcast S4096x256 (Scalar.ofBits (F := Ideal) .f32 0x00000000#32)))
         (log1p (exp (subf (broadcast S4096x256 (Scalar.ofBits (F := Ideal) .f32 0x00000000#32)) (absf l)))) i
      = Cert.Nce.negTerm (l i) := by
  show max (l i) (Ideal.ofBits .f32 0x00000000#32)
        + Ideal.log1p (Ideal.exp (Ideal.ofBits .f32 0x00000000#32 - max (l i) (-(l i)))) = _
  rw [Ideal.ofBits_zero_f32]
  rfl

/-- The body's stored number is the double sum of the cross-entropies of the tile's logits. -/
theorem tile_sum (x0 : FVec Ideal S4096x256 .f32) (x1 : FVec Ideal S256x256 .bf16) (x2 : FVec Ideal S1x256 .f32) (j : S1x1x1.Idx) :
    k0_pay1 (F := Ideal) x0 x1 x2 j = ∑ r : Fin 4096, ∑ s : Fin 256, Cert.Nce.negTerm (tileLogit x0 x1 x2 r s) := by
  unfold k0_pay1
  -- the one stored number is the reduction's one element
  have step : ∀ v : FVec Ideal S1 .f32,
      broadcast S1x1x1 (extractAt ![0, 0, 0] (shapeCast S1x1x1 v shapeCasts_S1_S1x1x1) inpos_S1x1x1_p0_0_0) j
        = v (Shape.reshapeEquiv shapeCasts_S1_S1x1x1 fun a => ⟨![0, 0, 0] a, inpos_S1x1x1_p0_0_0 a⟩) := fun _ => rfl
  refine (step _).trans ?_
  -- which is the total over every index of the `[1, 4096, 256]` array
  refine (Ideal.multiReduction_add_total _ _ reduces_S1x4096x256_S1 (fun b => by
    match b with
    | ⟨0, _⟩ => rfl) _ _ _).trans ?_
  -- a sum over the last two coordinates, the unit axis read away
  rw [sum_idx1ab]
  refine Finset.sum_congr rfl fun r _ => Finset.sum_congr rfl fun s _ => ?_
  rw [ValueIdx.shapeCast_ab_1ab_apply]
  exact (ce_apply _ _).trans (congrArg Cert.Nce.negTerm (logit_apply x0 x1 x2 r s))

end Cert.KernelIdeal.NceTile

end
-- ==== Proof.RefValue.lean ====
import proofs.«421180_j90615220011778_2_alg».proof.Proof.Gen.ReferenceIdeal.Read
import proofs.«421180_j90615220011778_2_alg».proof.Proof.NceSums
import Idealize.ShloMosaic.Lib.ValueIdx
import Idealize.ShloMosaic.Lib.ValueLayout
import Idealize.ShloMosaic.PureOps.Ideal.Laws

/-!
# The reference's cost as a double sum

The reference computes, for example `b` and candidate `s`, the logit `(⟨embedded row b, weight row s⟩ + bias s) − prior s`,
its cross-entropy against the label `0`, sums over the candidates, adds the example's true-logit term, sums over the
examples and divides by their number. Read at an index, each stage is the named earlier stages at an index.
-/

set_option maxRecDepth 16384

noncomputable section

namespace Cert.ReferenceIdeal.NceRef

open Cert.ReferenceIdeal Cert.ReferenceIdeal.Gen Cert.ReferenceIdeal.Read
open Idealize.ShloMosaic

variable (x0 x1 : (⟨S100000x256, .f32⟩ : BufTy).Contents (Elt Ideal)) (x2 : (⟨S100000, .f32⟩ : BufTy).Contents (Elt Ideal))
  (x3 : (⟨S16384, .i32⟩ : BufTy).Contents (Elt Ideal)) (x4 : (⟨S16384x1, .i32⟩ : BufTy).Contents (Elt Ideal))
  (x5 : (⟨S256, .i32⟩ : BufTy).Contents (Elt Ideal))

/-- The logit of example `b` against candidate `s`: the embedded row's dot product with the candidate's weight row, plus
    the candidate's bias, less its log-prior. -/
def refLogit (b : Fin 16384) (s : Fin 256) : EReal :=
  ((∑ k : Fin 256, val_main_v6 (F := Ideal) x0 x3 (ValueIdx.ix2 b k) * val_main_v47 (F := Ideal) x1 x5 (ValueIdx.ix2 s k))
      + val_main_v54 (F := Ideal) x2 x5 (ValueIdx.ix1 s))
    - val_main_v73 (F := Ideal) x5 (ValueIdx.ix1 s)

/-- The candidate term at `(b, s)` is the cross-entropy of that logit against the label `0`, as the reference spells it. -/
theorem ref_term (b : Fin 16384) (s : Fin 256) :
    val_main_v96 (F := Ideal) x0 x1 x2 x3 x5 (ValueIdx.ix2 b s)
      = (max (refLogit x0 x1 x2 x3 x5 b s) 0 - refLogit x0 x1 x2 x3 x5 b s * 0)
        + Ideal.log1p (Ideal.exp (-(max (refLogit x0 x1 x2 x3 x5 b s) (-(refLogit x0 x1 x2 x3 x5 b s))))) := by
  -- each stage at the index `(b, s)` is its operands' stages at an index, down to the four named stages
  rw [val_main_v96_apply, val_main_v91_apply, val_main_v88_apply, val_main_v90_apply, val_main_v95_apply,
    val_main_v94_apply, val_main_v93_apply, val_main_v92_apply, val_main_v76_apply, val_main_v58_apply,
    val_main_v55_apply, val_main_v57_apply, val_main_v56_apply, val_main_v75_apply, val_main_v74_apply,
    val_main_v87_apply, val_main_cst_19_apply, val_main_v89_apply, val_main_cst_20_apply]
  -- the composed index maps are the coordinate pairs `(b, k)`, `(s, k)` and the coordinate `s`
  have hl : ∀ k : Fin 256, lidx_main_v55 (ValueIdx.ix2 b s) k = ValueIdx.ix2 b k := fun k =>
    funext fun a => Fin.ext (by match a with | ⟨0, _⟩ => rfl | ⟨1, _⟩ => rfl)
  have hr : ∀ k : Fin 256, ridx_main_v55 (ValueIdx.ix2 b s) k = ValueIdx.ix2 s k := fun k =>
    funext fun a => Fin.ext (by match a with | ⟨0, _⟩ => rfl | ⟨1, _⟩ => rfl)
  have h56 : idx_main_v56 (idx_main_v57 (ValueIdx.ix2 b s)) = ValueIdx.ix1 s :=
    funext fun a => Fin.ext (by match a with | ⟨0, _⟩ => rfl)
  have h74 : idx_main_v74 (idx_main_v75 (ValueIdx.ix2 b s)) = ValueIdx.ix1 s :=
    funext fun a => Fin.ext (by match a with | ⟨0, _⟩ => rfl)
  simp only [hl, hr, h56, h74]
  -- at the ideal values the operations are the extended reals', and the zero constants are `0`
  simp only [Ideal.addf_def, Ideal.subf_def, Ideal.mulf_def, Ideal.maximumf_def, Ideal.hostNegf_def, Ideal.negf_def,
    Ideal.hostAbsf_def, Ideal.absf_def, Ideal.hostUnary_exp_def, Ideal.hostUnary_log1p_def, Ideal.ofBits_def,
    Ideal.ofBits_zero_f32]
  unfold refLogit
  rfl

/-- The cost: the mean over the examples of (true-logit term + sum of the candidate terms). -/
theorem ref_cost :
    val_main_v100 (F := Ideal) x0 x1 x2 x3 x4 x5
      = fun _ => Ideal.div
          (0 + ∑ b : Fin 16384, (val_main_v86 (F := Ideal) x0 x1 x2 x3 x4 (ValueIdx.ix1 b)
            + (0 + ∑ s : Fin 256, val_main_v96 (F := Ideal) x0 x1 x2 x3 x5 (ValueIdx.ix2 b s))))
          (Ideal.ofBits .f32 0x46800000#32) := by
  funext i
  -- the quotient of the total by the count; the total is the initial value plus the sum over the examples
  rw [val_main_v100_apply, val_main_v99_apply, val_main_cst_23_apply, val_main_cst_22_apply]
  simp only [val_main_v98_apply, val_main_v97_apply, val_main_cst_21_apply]
  -- a sum over the rank-1 indices is the sum over their one coordinate: `b ↦ (b)` is a bijection with inverse `j ↦ j 0`
  have hsum : ∀ f : S16384.Idx → EReal, ∑ j : S16384.Idx, f j = ∑ b : Fin 16384, f (ValueIdx.ix1 b) := fun f =>
    Fintype.sum_equiv
      { toFun := fun j => j 0, invFun := fun b => ValueIdx.ix1 b,
        left_inv := fun j => (ValueIdx.eq_ix1 j).symm, right_inv := fun b => rfl }
      _ _ (fun j => congrArg f (ValueIdx.eq_ix1 j))
  rw [hsum]
  -- the row index `(b)` extended by `k` is the pair `(b, k)`
  have h97 : ∀ (b : Fin 16384) (k : Fin 256), idx_main_v97 (ValueIdx.ix1 b) k = ValueIdx.ix2 b k := fun b k =>
    funext fun a => Fin.ext (by match a with | ⟨0, _⟩ => rfl | ⟨1, _⟩ => rfl)
  simp only [h97]
  simp only [Ideal.ofBits_def, Ideal.ofBits_zero_f32, Ideal.addf_def, Ideal.hostDivf_def]

end Cert.ReferenceIdeal.NceRef

end
-- ==== Proof.Cost.lean ====
import proofs.«421180_j90615220011778_2_alg».proof.Proof.Lookups
import proofs.«421180_j90615220011778_2_alg».proof.Proof.KernelHost
import proofs.«421180_j90615220011778_2_alg».proof.Proof.KernelValue
import proofs.«421180_j90615220011778_2_alg».proof.Proof.TileSum
import proofs.«421180_j90615220011778_2_alg».proof.Proof.RefValue
import proofs.«421180_j90615220011778_2_alg».proof.Proof.NceSums
import Idealize.ShloMosaic.Lib.Pipeline.Value
import Idealize.ShloMosaic.Lib.ValueLayout
import Idealize.ShloMosaic.Lib.ValueIdx
import Idealize.ShloMosaic.PureOps.Ideal.Laws
import Idealize.ShloMosaic.Lib.IdealHost

/-!
# The kernel's cost is the reference's

With the lookups identified, the total of the true-logit terms is the reference's sum of its per-example terms (the
same operations of the same arrays). A tile's logit at `(r, s)` is the reference's logit of example `4096 t + r` against
candidate `s`: the transposed weights read back transposed, the bias row is bias less prior, and the prior may be
subtracted from the bias or from the sum. The cross-entropy against the label `0` is the same number in both spellings.
So a tile's total is the double sum of the reference's candidate terms over the tile's examples, and the cost — the
true-term total plus the four tile totals, over 16384 — is the reference's mean of per-example totals, regrouped.
-/

set_option maxRecDepth 16384

noncomputable section

namespace Cert.Proof.NceCost

open Cert.KernelIdeal Cert.KernelIdeal.Gen Cert.KernelIdeal.NceHost Cert.KernelIdeal.NceValue Cert.KernelIdeal.NceTile
open Cert.Proof.NceLookups Cert.Nce
open Idealize.ShloMosaic Idealize.ShloMosaic.TcCoe Idealize.SL.Sem

variable {m : (ℓ : Loc nD τ sig) → Buf (Elt Ideal) ℓ}

/-- The per-example true-logit terms are the shared chain of the reference's looked-up arrays. -/
theorem ref_trueTerms (c : Dev nD) :
    Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      = trueTerms (F := Ideal) (Cert.ReferenceIdeal.Read.val_main_v6 (F := Ideal) (m ((c.tc : Thread nD τ).loc main_arg0)) (m ((c.tc : Thread nD τ).loc main_arg3))) (Cert.ReferenceIdeal.Read.val_main_v14 (F := Ideal) (m ((c.tc : Thread nD τ).loc main_arg1)) (m ((c.tc : Thread nD τ).loc main_arg4)))
          (Cert.ReferenceIdeal.Read.val_main_v21 (F := Ideal) (m ((c.tc : Thread nD τ).loc main_arg2)) (m ((c.tc : Thread nD τ).loc main_arg4))) (shapeCast S16384 (m ((c.tc : Thread nD τ).loc main_arg4)) shapeCasts_S16384x1_S16384) := rfl

/-- The candidates' log-priors are the shared chain of the candidate indices. -/
theorem ref_prior (c : Dev nD) : Cert.ReferenceIdeal.Read.val_main_v73 (F := Ideal) (m ((c.tc : Thread nD τ).loc main_arg5)) = prior256 (F := Ideal) (m ((c.tc : Thread nD τ).loc main_arg5)) := rfl

/-- The total of the true-logit terms is the reference's sum of its per-example terms. -/
theorem trueTotal_eq (h : InRange m) (c : Dev nD) :
    trueTotal m c = Host.reduceAdd (Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (constant S_ .f32 0x00000000#32) reducesTo_S16384_S_d0 h_S_ := by
  show V m c main_v33 = _
  rw [trueTotal_read, emb_eq h c, trueW_eq h c, trueB_eq h c, labels_read, ref_trueTerms c]

/-- Row `r` of tile `t` of the embedded batch is the reference's embedded row `4096 t + r`. -/
theorem emb_at (h : InRange m) (c : Dev nD) (t : Fin 4) (r : Fin 4096) (k : Fin 256) :
    embBlock m c t (ValueIdx.ix2 r k) = Cert.ReferenceIdeal.Read.val_main_v6 (F := Ideal) (m ((c.tc : Thread nD τ).loc main_arg0)) (m ((c.tc : Thread nD τ).loc main_arg3)) (ValueIdx.ix2 (tileRow t r) k) := by
  unfold embBlock
  show V m c main_v1 _ = _
  rw [emb_eq h c]
  rfl

/-- The staged weights at `(k, s)` are the reference's candidate weights at `(s, k)`. -/
theorem wt_at (h : InRange m) (c : Dev nD) (k s : Fin 256) :
    wtArr m c (ValueIdx.ix2 k s) = Cert.ReferenceIdeal.Read.val_main_v47 (F := Ideal) (m ((c.tc : Thread nD τ).loc main_arg1)) (m ((c.tc : Thread nD τ).loc main_arg5)) (ValueIdx.ix2 s k) := by
  show V m c main_v53 _ = _
  rw [weights_read, candW_eq h c, ValueIdx.truncf_apply]
  exact ValueIdx.transpose_ix2_apply _ _ k s

/-- The staged bias row at `(0, s)` is the reference's candidate bias less its log-prior. -/
theorem bias_at (h : InRange m) (c : Dev nD) (s : Fin 256) :
    biasArr m c (ValueIdx.ix2 (0 : Fin 1) s)
      = Cert.ReferenceIdeal.Read.val_main_v54 (F := Ideal) (m ((c.tc : Thread nD τ).loc main_arg2)) (m ((c.tc : Thread nD τ).loc main_arg5)) (ValueIdx.ix1 s) - Cert.ReferenceIdeal.Read.val_main_v73 (F := Ideal) (m ((c.tc : Thread nD τ).loc main_arg5)) (ValueIdx.ix1 s) := by
  show V m c main_v54 _ = _
  rw [bias_read, candB_eq h c, ref_prior c]
  refine (shapeCast_addUnit_apply (n := 1) ![256] _ _ _).trans ?_
  have e : ((fun a => ValueIdx.ix2 (0 : Fin 1) s a.succ) : (⟨1, ![256]⟩ : Shape).Idx) = ValueIdx.ix1 s :=
    funext fun a => by match a with | ⟨0, _⟩ => rfl
  exact congrArg (fun i : (⟨1, ![256]⟩ : Shape).Idx =>
    Cert.ReferenceIdeal.Read.val_main_v54 (F := Ideal) (m ((c.tc : Thread nD τ).loc main_arg2)) (m ((c.tc : Thread nD τ).loc main_arg5)) i - prior256 (F := Ideal) (m ((c.tc : Thread nD τ).loc main_arg5)) i) e

/-- A tile's logit is the reference's logit of the tile's example against the candidate. -/
theorem logit_at (h : InRange m) (c : Dev nD) (t : Fin 4) (r : Fin 4096) (s : Fin 256) :
    tileLogit (embBlock m c t) (wtArr m c) (biasArr m c) r s
      = Cert.ReferenceIdeal.NceRef.refLogit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (tileRow t r) s := by
  unfold tileLogit Cert.ReferenceIdeal.NceRef.refLogit
  rw [bias_at h c s, logit_eq]
  have hs : (∑ k : Fin 256, embBlock m c t (ValueIdx.ix2 r k) * wtArr m c (ValueIdx.ix2 k s))
      = ∑ k : Fin 256, Cert.ReferenceIdeal.Read.val_main_v6 (F := Ideal) (m ((c.tc : Thread nD τ).loc main_arg0)) (m ((c.tc : Thread nD τ).loc main_arg3)) (ValueIdx.ix2 (tileRow t r) k)
          * Cert.ReferenceIdeal.Read.val_main_v47 (F := Ideal) (m ((c.tc : Thread nD τ).loc main_arg1)) (m ((c.tc : Thread nD τ).loc main_arg5)) (ValueIdx.ix2 s k) :=
    Finset.sum_congr rfl fun k _ => by rw [emb_at h c t r k, wt_at h c k s]
  rw [hs]

/-- A tile's total is the double sum of the reference's candidate terms over the tile's examples. -/
theorem tile_eq (h : InRange m) (c : Dev nD) (t : Fin 4) :
    tileTotal m c t = ∑ r : Fin 4096, ∑ s : Fin 256,
      Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ValueIdx.ix2 (tileRow t r) s) := by
  unfold tileTotal
  rw [tile_sum]
  refine Finset.sum_congr rfl fun r _ => Finset.sum_congr rfl fun s _ => ?_
  rw [logit_at h c t r s, Cert.ReferenceIdeal.NceRef.ref_term]
  exact negTerm_eq _

/-- A sum over the indices of a one-axis array is the sum over the coordinate. -/
theorem sum_ix1 {n : Nat} (f : (⟨1, ![n]⟩ : Shape).Idx → EReal) : ∑ j, f j = ∑ b : Fin n, f (ValueIdx.ix1 b) :=
  Fintype.sum_equiv
    { toFun := fun j => j 0, invFun := fun b => ValueIdx.ix1 b,
      left_inv := fun j => (ValueIdx.eq_ix1 j).symm, right_inv := fun b => rfl }
    _ _ (fun j => congrArg f (ValueIdx.eq_ix1 j))

/-- An index of an `[n, 1, 1]` array is its first coordinate followed by two zeros. -/
theorem eq_ix3_unit {n : Nat} (q : (⟨3, ![n, 1, 1]⟩ : Shape).Idx) : q = ValueIdx.ix3 (q 0) (0 : Fin 1) (0 : Fin 1) :=
  funext fun a => Fin.ext (by
    match a with
    | ⟨0, _⟩ => rfl
    | ⟨1, _⟩ => have h1 : (q 1).val < 1 := (q 1).isLt; show (q 1).val = 0; omega
    | ⟨2, _⟩ => have h2 : (q 2).val < 1 := (q 2).isLt; show (q 2).val = 0; omega)

/-- A sum over the indices of an `[n, 1, 1]` array is the sum over the first coordinate. -/
theorem sum_ix3_unit {n : Nat} (f : (⟨3, ![n, 1, 1]⟩ : Shape).Idx → EReal) :
    ∑ q, f q = ∑ t : Fin n, f (ValueIdx.ix3 t (0 : Fin 1) (0 : Fin 1)) :=
  Fintype.sum_equiv
    { toFun := fun q => q 0, invFun := fun t => ValueIdx.ix3 t (0 : Fin 1) (0 : Fin 1),
      left_inv := fun q => (eq_ix3_unit q).symm, right_inv := fun t => rfl }
    _ _ (fun q => congrArg f (eq_ix3_unit q))

/-- THE COST: (true-term total + the four tile totals) / 16384 is the reference's mean of per-example totals. -/
theorem cost_eq (h : InRange m) (c : Dev nD) :
    cost m c = Cert.ReferenceIdeal.Read.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [Cert.ReferenceIdeal.NceRef.ref_cost]
  funext i
  unfold cost
  rw [ValueIdx.hostDivf_apply, ValueIdx.addf_apply, trueTotal_eq h c, ValueIdx.hostReduceAdd_apply, ValueIdx.hostReduceAdd_apply,
    Ideal.hostReduceAdd_total _ (fun b => b.elim0), Ideal.hostReduceAdd_total _ (fun b => b.elim0),
    sum_ix1, sum_ix3_unit]
  have ht : ∀ t : Fin 4, tileTotals m c (ValueIdx.ix3 t (0 : Fin 1) (0 : Fin 1))
      = ∑ r : Fin 4096, ∑ s : Fin 256, Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ValueIdx.ix2 (tileRow t r) s) := fun t => tile_eq h c t
  simp only [ht]
  show Ideal.div ((Ideal.ofBits .f32 0x00000000#32 + _) + (Ideal.ofBits .f32 0x00000000#32 + _)) (Ideal.ofBits .f32 0x46800000#32) = _
  rw [Ideal.ofBits_zero_f32]
  have key : (0 + ∑ b : Fin 16384, Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ValueIdx.ix1 b))
        + (0 + ∑ t : Fin 4, ∑ r : Fin 4096, ∑ s : Fin 256, Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ValueIdx.ix2 (tileRow t r) s))
      = 0 + ∑ b : Fin 16384, (Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ValueIdx.ix1 b) + (0 + ∑ s : Fin 256, Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ValueIdx.ix2 b s))) :=
    sum_tiles (fun b => Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ValueIdx.ix1 b)) (fun b s => Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ValueIdx.ix2 b s))
  rw [key]

end Cert.Proof.NceCost

end
-- ==== Proof.lean ====
/- The sampled-softmax (noise-contrastive) cost of a batch of 16384 examples against 256 sampled candidates, and the
   embedded batch itself, computed two ways. Both programs look the examples', labels' and candidates' rows up in
   100000-row tables; the kernel's lookups carry a fill value for an index out of range, the reference's do not, and
   under the precondition — every index in `[0, 100000)` — they are the same arrays. The true-logit side is then the
   same operations of the same arrays in both. On the candidate side the kernel multiplies tiles of 4096 embedded rows
   by the transposed candidate weights in a narrow float format (the identity at the exact values), adds a bias row
   that already has the log-prior subtracted, and sums the label-0 cross-entropies of a whole tile into one number;
   the reference forms the `[16384, 256]` logits at once, subtracts the prior last, and sums candidate by candidate,
   then example by example. On the extended reals a difference is a sum with the opposite and addition is associative
   and commutative, the product of a logit with the label `0` is `0`, and so the two costs are one number. The frames
   of the two kernel programs are the generated ones; the reference's is its generated run with the results dropped;
   the idealization rewrote nothing. -/
import proofs.«421180_j90615220011778_2_alg».proof.Defs
import proofs.«421180_j90615220011778_2_alg».proof.Proof.Gen.Kernel
import proofs.«421180_j90615220011778_2_alg».proof.Proof.Gen.Kernel.Skeleton
import proofs.«421180_j90615220011778_2_alg».proof.Proof.Gen.Kernel.Launch
import proofs.«421180_j90615220011778_2_alg».proof.Proof.Gen.Kernel.Points
import proofs.«421180_j90615220011778_2_alg».proof.Proof.Gen.Kernel.Frame
import proofs.«421180_j90615220011778_2_alg».proof.Proof.Gen.KernelIdeal
import proofs.«421180_j90615220011778_2_alg».proof.Proof.Gen.KernelIdeal.Skeleton
import proofs.«421180_j90615220011778_2_alg».proof.Proof.Gen.KernelIdeal.Launch
import proofs.«421180_j90615220011778_2_alg».proof.Proof.Gen.KernelIdeal.Points
import proofs.«421180_j90615220011778_2_alg».proof.Proof.Gen.KernelIdeal.Frame
import proofs.«421180_j90615220011778_2_alg».proof.Proof.Gen.ReferenceIdeal
import proofs.«421180_j90615220011778_2_alg».proof.Proof.Gen.Pre_finite_inputs
import proofs.«421180_j90615220011778_2_alg».proof.Proof.Gen.ReferenceIdeal.Run
import proofs.«421180_j90615220011778_2_alg».proof.Proof.Gen.ReferenceIdeal.Read
import proofs.«421180_j90615220011778_2_alg».proof.Proof.KernelValue
import proofs.«421180_j90615220011778_2_alg».proof.Proof.Lookups
import proofs.«421180_j90615220011778_2_alg».proof.Proof.Cost
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, under the precondition, both programs end with the embedded batch and the
    cost: the kernel's run read off its frame, the reference's off its generated run, and the two values equal by the
    lookups' and the cost's identities. -/
theorem algebraic : Cert.algebraic_KernelIdeal_ReferenceIdeal := by
  intro m ρ m' ρ' hpre hagree
  have hr := Cert.Proof.NceLookups.inRange_of_pre m hpre
  refine ⟨fun c => Cert.KernelIdeal.NceValue.embArr m c, fun c => Cert.KernelIdeal.NceValue.cost m c,
    Cert.KernelIdeal.NceValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.2.1]
    exact (Cert.Proof.NceLookups.emb_eq hr c).symm
  · rw [Cert.ReferenceIdeal.Read.val_main_v100_eq, (hagree c).1, (hagree c).2.1, (hagree c).2.2.1, (hagree c).2.2.2.1,
      (hagree c).2.2.2.2.1, (hagree c).2.2.2.2.2]
    exact (Cert.Proof.NceCost.cost_eq hr c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
